-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S1x256 : Shape := ⟨2, ![1, 256]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S1x256 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S1x256 : Shape := ⟨2, ![1, 256]⟩
abbrev S1x128 : Shape := ⟨2, ![1, 128]⟩
abbrev S128x1 : Shape := ⟨2, ![128, 1]⟩
abbrev S10000x1 : Shape := ⟨2, ![10000, 1]⟩
abbrev S1x10000 : Shape := ⟨2, ![1, 10000]⟩
abbrev S1000x128 : Shape := ⟨2, ![1000, 128]⟩
abbrev S1000x1 : Shape := ⟨2, ![1000, 1]⟩
abbrev S80x10000 : Shape := ⟨2, ![80, 10000]⟩
abbrev S80x1 : Shape := ⟨2, ![80, 1]⟩
abbrev S80x128 : Shape := ⟨2, ![80, 128]⟩
abbrev S80 : Shape := ⟨1, ![80]⟩

abbrev nBuf : Space → Nat
  | .hbm => 19
  | .vmem => 33
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S1x256, .f32⟩
  | .hbm, ⟨4, _⟩ => ⟨S1x128, .f32⟩
  | .hbm, ⟨5, _⟩ => ⟨S128x1, .f32⟩
  | .hbm, ⟨6, _⟩ => ⟨S1x128, .f32⟩
  | .hbm, ⟨7, _⟩ => ⟨S128x1, .f32⟩
  | .hbm, ⟨8, _⟩ => ⟨S10000x128, .bf16⟩
  | .hbm, ⟨9, _⟩ => ⟨S10000x1, .f32⟩
  | .hbm, ⟨10, _⟩ => ⟨S10000x1, .f32⟩
  | .hbm, ⟨11, _⟩ => ⟨S10000x1, .f32⟩
  | .hbm, ⟨12, _⟩ => ⟨S10000x1, .f32⟩
  | .hbm, ⟨13, _⟩ => ⟨S10000x1, .f32⟩
  | .hbm, ⟨14, _⟩ => ⟨S10000x1, .f32⟩
  | .hbm, ⟨15, _⟩ => ⟨S1x10000, .f32⟩
  | .hbm, ⟨16, _⟩ => ⟨S1x10000, .f32⟩
  | .hbm, ⟨17, _⟩ => ⟨S1x10000, .f32⟩
  | .hbm, ⟨18, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S128x1, .f32⟩
  | .local _ .vmem, ⟨4, _⟩ => ⟨S128x1, .f32⟩
  | .local _ .vmem, ⟨5, _⟩ => ⟨S1000x128, .bf16⟩
  | .local _ .vmem, ⟨6, _⟩ => ⟨S1000x128, .bf16⟩
  | .local _ .vmem, ⟨7, _⟩ => ⟨S1000x1, .f32⟩
  | .local _ .vmem, ⟨8, _⟩ => ⟨S1000x1, .f32⟩
  | .local _ .vmem, ⟨9, _⟩ => ⟨S1000x1, .f32⟩
  | .local _ .vmem, ⟨10, _⟩ => ⟨S1000x1, .f32⟩
  | .local _ .vmem, ⟨11, _⟩ => ⟨S1000x1, .f32⟩
  | .local _ .vmem, ⟨12, _⟩ => ⟨S1000x1, .f32⟩
  | .local _ .vmem, ⟨13, _⟩ => ⟨S1000x1, .f32⟩
  | .local _ .vmem, ⟨14, _⟩ => ⟨S1000x1, .f32⟩
  | .local _ .vmem, ⟨15, _⟩ => ⟨S1000x1, .f32⟩
  | .local _ .vmem, ⟨16, _⟩ => ⟨S1000x1, .f32⟩
  | .local _ .vmem, ⟨17, _⟩ => ⟨S1000x1, .f32⟩
  | .local _ .vmem, ⟨18, _⟩ => ⟨S1000x1, .f32⟩
  | .local _ .vmem, ⟨19, _⟩ => ⟨S80x10000, .f32⟩
  | .local _ .vmem, ⟨20, _⟩ => ⟨S80x10000, .f32⟩
  | .local _ .vmem, ⟨21, _⟩ => ⟨S80x1, .f32⟩
  | .local _ .vmem, ⟨22, _⟩ => ⟨S80x1, .f32⟩
  | .local _ .vmem, ⟨23, _⟩ => ⟨S80x1, .f32⟩
  | .local _ .vmem, ⟨24, _⟩ => ⟨S80x1, .f32⟩
  | .local _ .vmem, ⟨25, _⟩ => ⟨S80x1, .f32⟩
  | .local _ .vmem, ⟨26, _⟩ => ⟨S80x1, .f32⟩
  | .local _ .vmem, ⟨27, _⟩ => ⟨S1x10000, .f32⟩
  | .local _ .vmem, ⟨28, _⟩ => ⟨S1x10000, .f32⟩
  | .local _ .vmem, ⟨29, _⟩ => ⟨S1x10000, .f32⟩
  | .local _ .vmem, ⟨30, _⟩ => ⟨S10000x128, .bf16⟩
  | .local _ .vmem, ⟨31, _⟩ => ⟨S80x128, .f32⟩
  | .local _ .vmem, ⟨32, _⟩ => ⟨S80x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4_0 : Ref sig .tc := ⟨.hbm, 8, rfl⟩
abbrev main_call0_v4_1 : Ref sig .tc := ⟨.hbm, 9, rfl⟩
abbrev main_call0_v4_2 : Ref sig .tc := ⟨.hbm, 10, rfl⟩
abbrev main_call0_v4_3 : Ref sig .tc := ⟨.hbm, 11, rfl⟩
abbrev main_call0_v4_4 : Ref sig .tc := ⟨.hbm, 12, rfl⟩
abbrev main_call0_v4_5 : Ref sig .tc := ⟨.hbm, 13, rfl⟩
abbrev main_call0_v4_6 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg8_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem8_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S80x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S80x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S80x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x10000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x10000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S10000x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S80x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S1x256_S1x128_0_0 : S1x256.Slices ![0, 0] S1x128
  transposes_S1x128_S128x1_1_0 : S1x128.Transposes [1, 0] S128x1
  slices_S1x256_S1x128_0_128 : S1x256.Slices ![0, 128] S1x128
  shapeCasts_S10000x1_S1x10000 : S10000x1.ShapeCasts S1x10000
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S1000x128_S1000x128_0_0 : (Rect.unit (s := S1000x128) ![0, 0] S1000x128.size inb_S1000x128_S1000x128_0_0).PackedRows (EltTy.packing .bf16)
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1000x1_S1000x1_0_0 : ∀ a, (![0, 0] : Fin 2 → Nat) a + S1000x1.size a ≤ S1000x1.size a
  h_S1000x1 : 0 < S1000x1.numel
  inb_S80x1_S80x1_0_0 : ∀ a, (![0, 0] : Fin 2 → Nat) a + S80x1.size a ≤ S80x1.size a
  h_S80x1 : 0 < S80x1.numel
  shapeCasts_S80x1_S80x1 : S80x1.ShapeCasts S80x1
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S80x1_S80x10000 : S80x1.Broadcasts S80x10000
  broadcasts_S1x10000_S80x10000 : S1x10000.Broadcasts S80x10000
  inb_S80x10000_S80x10000_0_0 : ∀ a, (![0, 0] : Fin 2 → Nat) a + S80x10000.size a ≤ S80x10000.size a
  h_S80x10000 : 0 < S80x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S80x10000_S80 : S80x10000.Reduces [1] S80
  shapeCasts_S80_S80x1 : S80.ShapeCasts S80x1
  broadcasts_S80x1_S80x128 : S80x1.Broadcasts S80x128
  inb_S80x128_S80x128_0_0 : ∀ a, (![0, 0] : Fin 2 → Nat) a + S80x128.size a ≤ S80x128.size a
  h_S80x128 : 0 < S80x128.numel
  dot_S1000x128_S128x128_S1000x128_1_0_0_1_n_n_wf : DotDims.WF S1000x128 S128x128 S1000x128 [1] [0] [0] [1] [] []
  dot_S1000x128_S128x1_S1000x1_1_0_0_1_n_n_wf : DotDims.WF S1000x128 S128x1 S1000x1 [1] [0] [0] [1] [] []
  dot_S80x10000_S10000x128_S80x128_1_0_0_1_n_n_wf : DotDims.WF S80x10000 S10000x128 S80x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S10000x128.size a
  hwx0_4 : ∀ i : grid0.Coords, EltTy.bits .bf16 = 32 ∨ (Rect.block (s := S10000x128) S1000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x1.size a ≤ S10000x1.size a
  hwx0_5 : ∀ i : grid0.Coords, EltTy.bits .f32 = 32 ∨ (Rect.block (s := S10000x1) S1000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x1.size a ≤ S10000x1.size a
  hwx0_6 : ∀ i : grid0.Coords, EltTy.bits .f32 = 32 ∨ (Rect.block (s := S10000x1) S1000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x1.size a ≤ S10000x1.size a
  hwx0_7 : ∀ i : grid0.Coords, EltTy.bits .f32 = 32 ∨ (Rect.block (s := S10000x1) S1000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x1.size a ≤ S10000x1.size a
  hwx0_8 : ∀ i : grid0.Coords, EltTy.bits .f32 = 32 ∨ (Rect.block (s := S10000x1) S1000x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x1.size a ≤ S10000x1.size a
  hwx0_9 : ∀ i : grid0.Coords, EltTy.bits .f32 = 32 ∨ (Rect.block (s := S10000x1) S1000x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x1.size a ≤ S10000x1.size a
  hwx0_10 : ∀ i : grid0.Coords, EltTy.bits .f32 = 32 ∨ (Rect.block (s := S10000x1) S1000x1.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x10000.size a ≤ S10000x10000.size a
  hwx1_0 : ∀ i : grid1.Coords, EltTy.bits .f32 = 32 ∨ (Rect.block (s := S10000x10000) S80x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S80x1.size a ≤ S10000x1.size a
  hwx1_1 : ∀ i : grid1.Coords, EltTy.bits .f32 = 32 ∨ (Rect.block (s := S10000x1) S80x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S80x1.size a ≤ S10000x1.size a
  hwx1_2 : ∀ i : grid1.Coords, EltTy.bits .f32 = 32 ∨ (Rect.block (s := S10000x1) S80x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S80x1.size a ≤ S10000x1.size a
  hwx1_3 : ∀ i : grid1.Coords, EltTy.bits .f32 = 32 ∨ (Rect.block (s := S10000x1) S80x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10000.size a ≤ S1x10000.size a
  hwx1_4 : ∀ i : grid1.Coords, EltTy.bits .f32 = 32 ∨ (Rect.block (s := S1x10000) S1x10000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x10000.size a ≤ S1x10000.size a
  hwx1_5 : ∀ i : grid1.Coords, EltTy.bits .f32 = 32 ∨ (Rect.block (s := S1x10000) S1x10000.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10000.size a ≤ S1x10000.size a
  hwx1_6 : ∀ i : grid1.Coords, EltTy.bits .f32 = 32 ∨ (Rect.block (s := S1x10000) S1x10000.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S10000x128.size a
  hwx1_7 : ∀ i : grid1.Coords, EltTy.bits .bf16 = 32 ∨ (Rect.block (s := S10000x128) S10000x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S80x128.size a ≤ S10000x128.size a
  hwx1_8 : ∀ i : grid1.Coords, EltTy.bits .f32 = 32 ∨ (Rect.block (s := S10000x128) S80x128.size (cc1_transform_8 i) (hinb1_8 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf
def dot_S80x10000_S10000x128_S80x128_1_0_0_1_n_n : DotDims S80x10000 S10000x128 S80x128 where
  lhsContracting := [1]
  rhsContracting := [0]
  lhsNonContracting := [0]
  rhsNonContracting := [1]
  lhsBatch := []
  rhsBatch := []
  wf := dot_S80x10000_S10000x128_S80x128_1_0_0_1_n_n_wf

abbrev win0_0 : Pipeline.Window sig grid0 :=
  Pipeline.Window.ofSpec (Memref.whole main_arg1) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4_0) S1000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4_1) S1000x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4_2) S1000x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4_3) S1000x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4_4) S1000x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v4_5) S1000x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_call0_v4_6) S1000x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg0) S80x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4_1) S80x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4_2) S80x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v4_3) S80x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v5) S1x10000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v6) S1x10000.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v7) S1x10000.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v4_0) S10000x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0) S80x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S1x256 : Shape := ⟨2, ![1, 256]⟩
abbrev S1x128 : Shape := ⟨2, ![1, 128]⟩
abbrev S128x1 : Shape := ⟨2, ![128, 1]⟩
abbrev S10000x1 : Shape := ⟨2, ![10000, 1]⟩
abbrev S1x10000 : Shape := ⟨2, ![1, 10000]⟩
abbrev S_ : Shape := ⟨0, ![]⟩
abbrev S10000 : Shape := ⟨1, ![10000]⟩

abbrev nBuf : Space → Nat
  | .hbm => 47
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S1x256, .f32⟩
  | .hbm, ⟨4, _⟩ => ⟨S10000x128, .f32⟩
  | .hbm, ⟨5, _⟩ => ⟨S1x128, .f32⟩
  | .hbm, ⟨6, _⟩ => ⟨S1x128, .f32⟩
  | .hbm, ⟨7, _⟩ => ⟨S128x1, .f32⟩
  | .hbm, ⟨8, _⟩ => ⟨S10000x1, .f32⟩
  | .hbm, ⟨9, _⟩ => ⟨S128x1, .f32⟩
  | .hbm, ⟨10, _⟩ => ⟨S10000x1, .f32⟩
  | .hbm, ⟨11, _⟩ => ⟨S1x10000, .f32⟩
  | .hbm, ⟨12, _⟩ => ⟨S10000x10000, .f32⟩
  | .hbm, ⟨13, _⟩ => ⟨S10000x10000, .f32⟩
  | .hbm, ⟨14, _⟩ => ⟨S10000x10000, .f32⟩
  | .hbm, ⟨15, _⟩ => ⟨S_, .f32⟩
  | .hbm, ⟨16, _⟩ => ⟨S_, .f32⟩
  | .hbm, ⟨17, _⟩ => ⟨S10000x10000, .f32⟩
  | .hbm, ⟨18, _⟩ => ⟨S10000x10000, .i1⟩
  | .hbm, ⟨19, _⟩ => ⟨S_, .f32⟩
  | .hbm, ⟨20, _⟩ => ⟨S10000x10000, .f32⟩
  | .hbm, ⟨21, _⟩ => ⟨S10000x10000, .f32⟩
  | .hbm, ⟨22, _⟩ => ⟨S10000x10000, .f32⟩
  | .hbm, ⟨23, _⟩ => ⟨S10000x10000, .f32⟩
  | .hbm, ⟨24, _⟩ => ⟨S10000x10000, .f32⟩
  | .hbm, ⟨25, _⟩ => ⟨S10000x10000, .f32⟩
  | .hbm, ⟨26, _⟩ => ⟨S_, .f32⟩
  | .hbm, ⟨27, _⟩ => ⟨S10000, .f32⟩
  | .hbm, ⟨28, _⟩ => ⟨S10000x1, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .i1⟩
  | .hbm, ⟨35, _⟩ => ⟨S_, .f32⟩
  | .hbm, ⟨36, _⟩ => ⟨S10000x128, .f32⟩
  | .hbm, ⟨37, _⟩ => ⟨S10000x128, .i1⟩
  | .hbm, ⟨38, _⟩ => ⟨S_, .f32⟩
  | .hbm, ⟨39, _⟩ => ⟨S_, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_cst_0 : Ref sig .tc := ⟨.hbm, 35, rfl⟩
abbrev main_call1_v2 : Ref sig .tc := ⟨.hbm, 36, rfl⟩
abbrev main_call1_v3 : Ref sig .tc := ⟨.hbm, 37, rfl⟩
abbrev main_call1_cst_1 : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_v4 : Ref sig .tc := ⟨.hbm, 41, rfl⟩
abbrev main_call1_v5 : Ref sig .tc := ⟨.hbm, 42, rfl⟩
abbrev main_call1_cst_2 : Ref sig .tc := ⟨.hbm, 43, rfl⟩
abbrev main_call1_v6 : Ref sig .tc := ⟨.hbm, 44, rfl⟩
abbrev main_call1_v7 : Ref sig .tc := ⟨.hbm, 45, rfl⟩
abbrev main_v20 : Ref sig .tc := ⟨.hbm, 46, rfl⟩

abbrev nD : Nat := 1
abbrev τ : Topo := Topo.v7x

variable {F : FTy → Type} [FloatOps F]

class Facts₀ : Prop where
  slices_S1x256_S1x128_0_0 : S1x256.Slices ![0, 0] S1x128
  slices_S1x256_S1x128_0_128 : S1x256.Slices ![0, 128] S1x128
  transposes_S1x128_S128x1_1_0 : S1x128.Transposes [1, 0] S128x1
  transposes_S10000x1_S1x10000_1_0 : S10000x1.Transposes [1, 0] S1x10000
  bcast_S10000x1_S10000x10000_0_1 : S10000x1.BroadcastsInDim S10000x10000 (![0, 1] : Fin 2 → Fin S10000x10000.rank)
  bcast_S1x10000_S10000x10000_0_1 : S1x10000.BroadcastsInDim S10000x10000 (![0, 1] : Fin 2 → Fin S10000x10000.rank)
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The graph-attention layer as mathematics on the extended reals.

  Inputs: a dense adjacency matrix `adj` (N x N, N = 10000), node features `X` (N x 128), a weight matrix
  `W` (128 x 128) and an attention vector `a` (1 x 256), whose first half scores a node as a source and
  whose second half scores it as a destination.

    wh i k     = sum_j X(i,j) W(j,k)                         the projected features
    fsrc i     = sum_k wh(i,k) a(0,k)                         the source score of node i
    fdst j     = sum_k wh(j,k) a(0,128+k)                     the destination score of node j
    att i j    = exp (-(leaky_relu (fsrc i + fdst j)))        leaky_relu s = s if s >= 0, else c s
    e i j      = adj(i,j) att(i,j)
    h i d      = (sum_j e(i,j) wh(j,d)) / (sum_j e(i,j))
    out i d    = elu (h i d)                                  elu x = x if x > 0, else exp x - 1

  The streaming form of the same layer never forms the score matrix: from per-node values
  exp(-fsrc i), exp(-c fsrc i), -fdst j, exp(-fdst j), exp(-c fdst j) it takes
    att i j = exp(-fsrc i) exp(-fdst j)       if fsrc i > -fdst j
            = exp(-c fsrc i) exp(-c fdst j)   otherwise,
  which is the same number whenever both scores are real: exp turns the sum of the scores into a product, and
  at a zero sum both branches are 1.
-/
import Idealize.ShloMosaic.PureOps.Ideal
import Idealize.ShloMosaic.PureOps.Ideal.Laws
import Idealize.ShloMosaic.Lib.ValueIdx

noncomputable section

namespace Cert.Gat

open Idealize.ShloMosaic Idealize.ShloMosaic.ValueIdx

/-! ## Shapes -/

abbrev Snn : Shape := ⟨2, ![10000, 10000]⟩
abbrev Snd : Shape := ⟨2, ![10000, 128]⟩
abbrev Sdd : Shape := ⟨2, ![128, 128]⟩
abbrev Sa : Shape := ⟨2, ![1, 256]⟩
abbrev Sd1 : Shape := ⟨2, ![128, 1]⟩
abbrev Sn1 : Shape := ⟨2, ![10000, 1]⟩
abbrev S1n : Shape := ⟨2, ![1, 10000]⟩

/-! ## The two slope words -/

/-- The negative-side slope of the leaky rectifier: the single-precision number nearest to one fifth. -/
def slope : EReal := Ideal.ofBits .f32 0x3E4CCCCD#32
/-- Its negative, as the streaming form multiplies by it. -/
def nslope : EReal := Ideal.ofBits .f32 0xBE4CCCCD#32

/-- The slope word denotes 13421773 / 2^26. -/
theorem slope_eq : slope = ((13421773 / 67108864 : ℝ) : EReal) := by
  unfold slope
  simp [Ideal.ofBits, Ideal.ieee, -EReal.coe_mul]
  norm_num

/-- The negated word denotes its negative. -/
theorem nslope_eq : nslope = ((-(13421773 / 67108864) : ℝ) : EReal) := by
  unfold nslope
  simp [Ideal.ofBits, Ideal.ieee, -EReal.coe_mul]
  norm_num

/-- The word of 1.0 denotes 1. -/
theorem ofBits_one : Ideal.ofBits .f32 0x3F800000#32 = (1 : EReal) := by
  simp [Ideal.ofBits, Ideal.ieee, -EReal.coe_mul]
  norm_num

/-! ## The layer -/

section Layer

variable (adj : Snn.Idx → EReal) (X : Snd.Idx → EReal) (W : Sdd.Idx → EReal) (a : Sa.Idx → EReal)

/-- The projected features: row i of X times column k of W. -/
def wh (i : Fin 10000) (k : Fin 128) : EReal := ∑ j : Fin 128, X (ix2 i j) * W (ix2 j k)

/-- A node's score against a column vector A of 128 entries. -/
def score (A : Sd1.Idx → EReal) (i : Fin 10000) : EReal := ∑ k : Fin 128, wh X W i k * A (ix2 k 0)

/-- The first half of the attention vector, as a column. -/
def colSrc : Sd1.Idx → EReal := fun y => a (ix2 0 ⟨(y 0).val, Nat.lt_of_lt_of_le (y 0).isLt (by decide)⟩)
/-- The second half of the attention vector, as a column. -/
def colDst : Sd1.Idx → EReal := fun y => a (ix2 0 ⟨128 + (y 0).val, by have := (y 0).isLt; change (y 0).val < 128 at this; omega⟩)

/-- The source score and the destination score of a node. -/
def fsrc (i : Fin 10000) : EReal := score X W (colSrc a) i
def fdst (i : Fin 10000) : EReal := score X W (colDst a) i

/-- The leaky rectifier followed by exp of the negative: the attention weight of a pair from the two scores. -/
def attR (fs fd : EReal) : EReal :=
  Ideal.exp (-(Scalar.select (Ideal.cmp .oge (fs + fd) 0) (fs + fd) (slope * (fs + fd))))

/-- The exponential linear unit. -/
def elu (x : EReal) : EReal := Scalar.select (Ideal.cmp .ogt x 0) x (Ideal.exp x - 1)

/-- The masked attention weight of the pair (i, j). -/
def eR (i j : Fin 10000) : EReal := adj (ix2 i j) * attR (fsrc X W a i) (fdst X W a j)

/-- The layer's output at node i, feature d. -/
def out (i : Fin 10000) (d : Fin 128) : EReal :=
  elu (Ideal.div (∑ j : Fin 10000, eR adj X W a i j * wh X W j d) (∑ j : Fin 10000, eR adj X W a i j))

/-- The layer's output as an array. -/
def G : Snd.Idx → EReal := fun y => out adj X W a (y 0) (y 1)

theorem G_ix2 (i : Fin 10000) (d : Fin 128) : G adj X W a (ix2 i d) = out adj X W a i d := rfl

end Layer

/-! ## The streaming form: per-node arrays, then one pass over the adjacency rows -/

section Streaming

variable (X : Snd.Idx → EReal) (W : Sdd.Idx → EReal)

/-- The projected features as an array. -/
def whA : Snd.Idx → EReal := fun y => wh X W (y 0) (y 1)
/-- A score column: entry (i, 0) is node i's score against A. -/
def scoreA (A : Sd1.Idx → EReal) : Sn1.Idx → EReal := fun y => score X W A (y 0)
/-- Its negative, formed as 0 - score. -/
def negA (A : Sd1.Idx → EReal) : Sn1.Idx → EReal := fun y => 0 - score X W A (y 0)
/-- exp of the negative score. -/
def expNegA (A : Sd1.Idx → EReal) : Sn1.Idx → EReal := fun y => Ideal.exp (0 - score X W A (y 0))
/-- exp of the score times the negated slope. -/
def expSlopeA (A : Sd1.Idx → EReal) : Sn1.Idx → EReal := fun y => Ideal.exp (nslope * score X W A (y 0))

theorem whA_ix2 (i : Fin 10000) (k : Fin 128) : whA X W (ix2 i k) = wh X W i k := rfl
theorem scoreA_ix2 (A : Sd1.Idx → EReal) (i : Fin 10000) (u : Fin 1) : scoreA X W A (ix2 i u) = score X W A i := rfl
theorem negA_ix2 (A : Sd1.Idx → EReal) (i : Fin 10000) (u : Fin 1) : negA X W A (ix2 i u) = 0 - score X W A i := rfl
theorem expNegA_ix2 (A : Sd1.Idx → EReal) (i : Fin 10000) (u : Fin 1) :
    expNegA X W A (ix2 i u) = Ideal.exp (0 - score X W A i) := rfl
theorem expSlopeA_ix2 (A : Sd1.Idx → EReal) (i : Fin 10000) (u : Fin 1) :
    expSlopeA X W A (ix2 i u) = Ideal.exp (nslope * score X W A i) := rfl

/-- A column of N entries laid out as a row. -/
def rowOf (C : Sn1.Idx → EReal) : S1n.Idx → EReal := fun y => C (ix2 (y 1) 0)
theorem rowOf_ix2 (C : Sn1.Idx → EReal) (u : Fin 1) (j : Fin 10000) : rowOf C (ix2 u j) = C (ix2 j 0) := rfl

end Streaming

/-- The streaming form's attention weight from the six per-node values. -/
def attK (fs u ua nf v va : EReal) : EReal := Scalar.select (Ideal.cmp .ogt fs nf) (u * v) (ua * va)

section Pass

variable (ADJ : Snn.Idx → EReal) (FS U UA : Sn1.Idx → EReal) (NF VR VAR : S1n.Idx → EReal) (WH : Snd.Idx → EReal)

/-- The masked weight of the pair (i, j) in the streaming pass. -/
def e1 (i j : Fin 10000) : EReal :=
  ADJ (ix2 i j) * attK (FS (ix2 i 0)) (U (ix2 i 0)) (UA (ix2 i 0)) (NF (ix2 0 j)) (VR (ix2 0 j)) (VAR (ix2 0 j))

/-- The streaming pass's output at node i, feature d. -/
def out1 (i : Fin 10000) (d : Fin 128) : EReal :=
  elu (Ideal.div (∑ j : Fin 10000, e1 ADJ FS U UA NF VR VAR i j * WH (ix2 j d)) (∑ j : Fin 10000, e1 ADJ FS U UA NF VR VAR i j))

/-- … as an array. -/
def G1 : Snd.Idx → EReal := fun y => out1 ADJ FS U UA NF VR VAR WH (y 0) (y 1)

theorem G1_ix2 (i : Fin 10000) (d : Fin 128) : G1 ADJ FS U UA NF VR VAR WH (ix2 i d) = out1 ADJ FS U UA NF VR VAR WH i d := rfl

end Pass

/-! ## The two forms agree on real scores -/

/-- For real scores the streaming weight is the reference weight. -/
theorem attK_eq_attR (r s : ℝ) :
    attK (r : EReal) (Ideal.exp (0 - (r : EReal))) (Ideal.exp (nslope * (r : EReal))) (0 - (s : EReal))
      (Ideal.exp (0 - (s : EReal))) (Ideal.exp (nslope * (s : EReal)))
    = attR (r : EReal) (s : EReal) := by
  have hz : (0 : EReal) = ((0 : ℝ) : EReal) := EReal.coe_zero.symm
  unfold attK attR
  rw [nslope_eq, slope_eq, hz, ← EReal.coe_sub, ← EReal.coe_sub, ← EReal.coe_mul, ← EReal.coe_mul, ← EReal.coe_add,
    ← EReal.coe_mul]
  simp only [Ideal.exp_coe, ← EReal.coe_mul]
  unfold Ideal.cmp
  simp only [EReal.coe_lt_coe_iff, EReal.coe_le_coe_iff]
  by_cases h : 0 - s < r
  · have h' : (0 : ℝ) ≤ r + s := by linarith
    rw [decide_eq_true h, decide_eq_true h']
    show ((Real.exp (0 - r) * Real.exp (0 - s) : ℝ) : EReal) = Ideal.exp (-((r + s : ℝ) : EReal))
    rw [← EReal.coe_neg, Ideal.exp_coe, ← Real.exp_add]
    congr 2; ring
  · rw [decide_eq_false h]
    show ((Real.exp (-(13421773 / 67108864) * r) * Real.exp (-(13421773 / 67108864) * s) : ℝ) : EReal) = _
    rw [← Real.exp_add]
    by_cases h' : (0 : ℝ) ≤ r + s
    · have h0 : r + s = 0 := by linarith
      rw [decide_eq_true h']
      show _ = Ideal.exp (-((r + s : ℝ) : EReal))
      rw [← EReal.coe_neg, Ideal.exp_coe]
      congr 2
      have : s = -r := by linarith
      subst this; ring
    · rw [decide_eq_false h']
      show _ = Ideal.exp (-((13421773 / 67108864 * (r + s) : ℝ) : EReal))
      rw [← EReal.coe_neg, Ideal.exp_coe]
      congr 2; ring

end Cert.Gat

end
-- ==== Proof.Glue.lean ====
/-
  The streaming form of the layer, fed with the per-node arrays the first pass leaves, is the layer itself whenever the
  features, the weights and the attention vector are real-valued: every score is then a finite sum of products of
  reals, hence real, and on real scores the two spellings of the attention weight agree (exp of a sum is the product
  of the exps; at a zero sum both branches are 1).
-/
import proofs.«175472_g21569325761082_cont_sun_m_1095_11_alg».proof.Proof.Spec

noncomputable section

namespace Cert.Gat

open Idealize.ShloMosaic Idealize.ShloMosaic.ValueIdx

/-- A finite sum of reals is a real. -/
theorem real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert b s hb ih =>
    obtain ⟨r, hr⟩ := hf b (Finset.mem_insert_self b s)
    obtain ⟨t, ht⟩ := ih fun i hi => hf i (Finset.mem_insert_of_mem hi)
    exact ⟨r + t, by rw [Finset.sum_insert hb, hr, ht, EReal.coe_add]⟩

/-- A product of two reals is a real. -/
theorem real_mul {x y : EReal} (hx : ∃ r : ℝ, x = (r : EReal)) (hy : ∃ r : ℝ, y = (r : EReal)) :
    ∃ r : ℝ, x * y = (r : EReal) := by
  obtain ⟨r, rfl⟩ := hx
  obtain ⟨t, rfl⟩ := hy
  exact ⟨r * t, (EReal.coe_mul r t).symm⟩

section

variable (adj : Snn.Idx → EReal) (X : Snd.Idx → EReal) (W : Sdd.Idx → EReal) (a : Sa.Idx → EReal)

/-- The projected features of real inputs are real. -/
theorem wh_real (hX : ∀ i, ∃ r : ℝ, X i = (r : EReal)) (hW : ∀ i, ∃ r : ℝ, W i = (r : EReal)) (i : Fin 10000) (k : Fin 128) :
    ∃ r : ℝ, wh X W i k = (r : EReal) :=
  real_sum _ _ fun j _ => real_mul (hX _) (hW _)

/-- A score of real inputs against a real column is real. -/
theorem score_real (hX : ∀ i, ∃ r : ℝ, X i = (r : EReal)) (hW : ∀ i, ∃ r : ℝ, W i = (r : EReal)) (A : Sd1.Idx → EReal)
    (hA : ∀ i, ∃ r : ℝ, A i = (r : EReal)) (i : Fin 10000) : ∃ r : ℝ, score X W A i = (r : EReal) :=
  real_sum _ _ fun k _ => real_mul (wh_real X W hX hW i k) (hA _)

/-- The streaming form over the first pass's arrays is the layer, for real features, weights and attention vector. -/
theorem stream_eq_layer (hX : ∀ i, ∃ r : ℝ, X i = (r : EReal)) (hW : ∀ i, ∃ r : ℝ, W i = (r : EReal))
    (ha : ∀ i, ∃ r : ℝ, a i = (r : EReal)) :
    G1 adj (scoreA X W (colSrc a)) (expNegA X W (colSrc a)) (expSlopeA X W (colSrc a))
        (rowOf (negA X W (colDst a))) (rowOf (expNegA X W (colDst a))) (rowOf (expSlopeA X W (colDst a))) (whA X W)
      = G adj X W a := by
  have he : ∀ i j : Fin 10000,
      e1 adj (scoreA X W (colSrc a)) (expNegA X W (colSrc a)) (expSlopeA X W (colSrc a))
          (rowOf (negA X W (colDst a))) (rowOf (expNegA X W (colDst a))) (rowOf (expSlopeA X W (colDst a))) i j
        = eR adj X W a i j := fun i j => by
    obtain ⟨r, hr⟩ := score_real X W hX hW (colSrc a) (fun _ => ha _) i
    obtain ⟨s, hs⟩ := score_real X W hX hW (colDst a) (fun _ => ha _) j
    show adj (ix2 i j) * attK (score X W (colSrc a) i) (Ideal.exp (0 - score X W (colSrc a) i))
        (Ideal.exp (nslope * score X W (colSrc a) i)) (0 - score X W (colDst a) j)
        (Ideal.exp (0 - score X W (colDst a) j)) (Ideal.exp (nslope * score X W (colDst a) j))
      = adj (ix2 i j) * attR (score X W (colSrc a) i) (score X W (colDst a) j)
    rw [hr, hs, attK_eq_attR r s]
  funext y
  obtain ⟨i, d, rfl⟩ : ∃ (i : Fin 10000) (d : Fin 128), y = ix2 i d := ⟨y 0, y 1, eq_ix2 y⟩
  show out1 adj (scoreA X W (colSrc a)) (expNegA X W (colSrc a)) (expSlopeA X W (colSrc a))
      (rowOf (negA X W (colDst a))) (rowOf (expNegA X W (colDst a))) (rowOf (expSlopeA X W (colDst a))) (whA X W) i d
    = out adj X W a i d
  unfold out1 out
  simp only [he]
  rfl

end

end Cert.Gat

end
-- ==== Proof.Region0.lean ====
/-
  The first kernel region, read as mathematics: what its ten grid points leave in each of its seven output arrays,
  as whole-array functions of the four arrays it reads.

  Point t reads rows 1000 t … 1000 t + 999 of the node features X, the whole weight matrix W and the two attention
  columns, and writes the same rows of each output. At a row r = 1000 t + p the body's values are
    the projected features    sum_j X(r,j) W(j,k),
    the score against a column A    sum_k wh(r,k) A(k,0),
    0 - score, exp (0 - score), exp (c' score)   with c' the negated slope word.
  Every row lies in exactly the block of point r / 1000, so the blocks fill each array.
-/
import proofs.«175472_g21569325761082_cont_sun_m_1095_11_alg».proof.Proof.Gen.KernelIdeal.Frame
import proofs.«175472_g21569325761082_cont_sun_m_1095_11_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-buffer access, as a constant function. -/
theorem hz : (![0, 0] : Fin 2 → Nat) = fun _ => 0 :=
  funext fun a => match a with | ⟨0, _⟩ => rfl | ⟨1, _⟩ => rfl

/-! ## The body's values, entry by entry -/

section Payloads

variable (x0 : Vec Ideal S1000x128 .f32) (x1 : Vec Ideal S128x128 .f32) (x2 : Vec Ideal S128x1 .f32)

/-- The first product at (p, k): row p of the feature block times column k of the weights. The accumulator is the
    zero word, and the one contracted axis is re-indexed by its coordinate. -/
theorem pay2_apply (p : Fin 1000) (k : Fin 128) :
    k0_pay2 x0 x1 (ix2 p k) = ∑ j : Fin 128, x0 (ix2 p j) * x1 (ix2 j k) := by
  unfold k0_pay2
  show FloatOps.matmul (F := Ideal) (φ₁ := .f32) (φ₂ := .f32) dot_S1000x128_S128x128_S1000x128_1_0_0_1_n_n none x0 x1
      (constant (F := Ideal) S1000x128 .f32 0x00000000#32) (ix2 p k) = _
  rw [Ideal.matmul_constant_zero_apply,
    ← Equiv.sum_comp (contrEquiv1 dot_S1000x128_S128x128_S1000x128_1_0_0_1_n_n 128 rfl rfl).symm]
  refine Finset.sum_congr rfl fun j _ => ?_
  exact congrArg₂ (· * ·)
    (congrArg x0 (funext fun a => match a with | ⟨0, _⟩ => Fin.ext rfl | ⟨1, _⟩ => Fin.ext rfl))
    (congrArg x1 (funext fun a => match a with | ⟨0, _⟩ => Fin.ext rfl | ⟨1, _⟩ => Fin.ext rfl))

/-- Narrowing the product's format changes nothing over the extended reals. -/
theorem pay3_apply (p : Fin 1000) (k : Fin 128) :
    (k0_pay3 x0 x1 (ix2 p k) : EReal) = k0_pay2 x0 x1 (ix2 p k) := rfl

/-- The second product at (p, 0): row p of the first product times the attention column. -/
theorem pay4_apply (p : Fin 1000) (u : Fin 1) :
    k0_pay4 x0 x1 x2 (ix2 p u) = ∑ k : Fin 128, k0_pay2 x0 x1 (ix2 p k) * x2 (ix2 k 0) := by
  obtain rfl : u = 0 := Subsingleton.elim _ _
  unfold k0_pay4
  show FloatOps.matmul (F := Ideal) (φ₁ := .f32) (φ₂ := .f32) dot_S1000x128_S128x1_S1000x1_1_0_0_1_n_n none (k0_pay2 x0 x1)
      (shapeCast S128x1 x2 _) (constant (F := Ideal) S1000x1 .f32 0x00000000#32) (ix2 p 0) = _
  rw [shapeCast_self, Ideal.matmul_constant_zero_apply,
    ← Equiv.sum_comp (contrEquiv1 dot_S1000x128_S128x1_S1000x1_1_0_0_1_n_n 128 rfl rfl).symm]
  refine Finset.sum_congr rfl fun k _ => ?_
  exact congrArg₂ (· * ·)
    (congrArg (k0_pay2 x0 x1) (funext fun a => match a with | ⟨0, _⟩ => Fin.ext rfl | ⟨1, _⟩ => Fin.ext rfl))
    (congrArg x2 (funext fun a => match a with | ⟨0, _⟩ => Fin.ext rfl | ⟨1, _⟩ => Fin.ext rfl))

/-- The product against the other attention column is the same function of its operands. -/
theorem pay5_eq : k0_pay5 x0 x1 x2 = k0_pay4 x0 x1 x2 := rfl

/-- exp of zero minus the score. -/
theorem pay6_apply (p : Fin 1000) (u : Fin 1) :
    k0_pay6 x0 x1 x2 (ix2 p u) = Ideal.exp (0 - k0_pay4 x0 x1 x2 (ix2 p u)) := by
  unfold k0_pay6
  show Ideal.exp (Ideal.ofBits .f32 0x00000000#32 - k0_pay4 x0 x1 x2 (ix2 p u)) = _
  rw [Ideal.ofBits_zero_f32]

/-- exp of the negated slope times the score. -/
theorem pay7_apply (p : Fin 1000) (u : Fin 1) :
    k0_pay7 x0 x1 x2 (ix2 p u) = Ideal.exp (Cert.Gat.nslope * k0_pay4 x0 x1 x2 (ix2 p u)) := rfl

/-- Zero minus the score. -/
theorem pay8_apply (p : Fin 1000) (u : Fin 1) :
    k0_pay8 x0 x1 x2 (ix2 p u) = 0 - k0_pay4 x0 x1 x2 (ix2 p u) := by
  unfold k0_pay8
  show Ideal.ofBits .f32 0x00000000#32 - k0_pay5 x0 x1 x2 (ix2 p u) = _
  rw [Ideal.ofBits_zero_f32, pay5_eq]

/-- exp of zero minus the score. -/
theorem pay9_apply (p : Fin 1000) (u : Fin 1) :
    k0_pay9 x0 x1 x2 (ix2 p u) = Ideal.exp (0 - k0_pay4 x0 x1 x2 (ix2 p u)) := by
  unfold k0_pay9
  show Ideal.exp (Ideal.ofBits .f32 0x00000000#32 - k0_pay5 x0 x1 x2 (ix2 p u)) = _
  rw [Ideal.ofBits_zero_f32, pay5_eq]

/-- exp of the negated slope times a column's entry. -/
theorem pay1_apply (v : Vec Ideal S1000x1 .f32) (p : Fin 1000) (u : Fin 1) :
    k0_pay1 (F := Ideal) v (ix2 p u) = Ideal.exp (Cert.Gat.nslope * v (ix2 p u)) := rfl

end Payloads

/-! ## The index maps, decided over the ten points -/

/-- Window 0's block index at point t: row block t, column block 0. -/
theorem idx0_0 : ∀ t : Fin cfg0.N, win0_0.index t (0 : Fin 2) = t.val ∧ win0_0.index t (1 : Fin 2) = 0 :=
  (by decide +kernel : ∀ t : Fin grid0.N, _)
/-- Window 1's block index at point t: the one block. -/
theorem idx0_1 : ∀ t : Fin cfg0.N, win0_1.index t (0 : Fin 2) = 0 ∧ win0_1.index t (1 : Fin 2) = 0 :=
  (by decide +kernel : ∀ t : Fin grid0.N, _)
/-- Window 2's block index at point t: the one block. -/
theorem idx0_2 : ∀ t : Fin cfg0.N, win0_2.index t (0 : Fin 2) = 0 ∧ win0_2.index t (1 : Fin 2) = 0 :=
  (by decide +kernel : ∀ t : Fin grid0.N, _)
/-- Window 3's block index at point t: the one block. -/
theorem idx0_3 : ∀ t : Fin cfg0.N, win0_3.index t (0 : Fin 2) = 0 ∧ win0_3.index t (1 : Fin 2) = 0 :=
  (by decide +kernel : ∀ t : Fin grid0.N, _)
/-- Window 4's block index at point t: row block t, column block 0. -/
theorem idx0_4 : ∀ t : Fin cfg0.N, win0_4.index t (0 : Fin 2) = t.val ∧ win0_4.index t (1 : Fin 2) = 0 :=
  (by decide +kernel : ∀ t : Fin grid0.N, _)
/-- Window 5's block index at point t: row block t, column block 0. -/
theorem idx0_5 : ∀ t : Fin cfg0.N, win0_5.index t (0 : Fin 2) = t.val ∧ win0_5.index t (1 : Fin 2) = 0 :=
  (by decide +kernel : ∀ t : Fin grid0.N, _)
/-- Window 6's block index at point t: row block t, column block 0. -/
theorem idx0_6 : ∀ t : Fin cfg0.N, win0_6.index t (0 : Fin 2) = t.val ∧ win0_6.index t (1 : Fin 2) = 0 :=
  (by decide +kernel : ∀ t : Fin grid0.N, _)
/-- Window 7's block index at point t: row block t, column block 0. -/
theorem idx0_7 : ∀ t : Fin cfg0.N, win0_7.index t (0 : Fin 2) = t.val ∧ win0_7.index t (1 : Fin 2) = 0 :=
  (by decide +kernel : ∀ t : Fin grid0.N, _)
/-- Window 8's block index at point t: row block t, column block 0. -/
theorem idx0_8 : ∀ t : Fin cfg0.N, win0_8.index t (0 : Fin 2) = t.val ∧ win0_8.index t (1 : Fin 2) = 0 :=
  (by decide +kernel : ∀ t : Fin grid0.N, _)
/-- Window 9's block index at point t: row block t, column block 0. -/
theorem idx0_9 : ∀ t : Fin cfg0.N, win0_9.index t (0 : Fin 2) = t.val ∧ win0_9.index t (1 : Fin 2) = 0 :=
  (by decide +kernel : ∀ t : Fin grid0.N, _)
/-- Window 10's block index at point t: row block t, column block 0. -/
theorem idx0_10 : ∀ t : Fin cfg0.N, win0_10.index t (0 : Fin 2) = t.val ∧ win0_10.index t (1 : Fin 2) = 0 :=
  (by decide +kernel : ∀ t : Fin grid0.N, _)

variable (V : (c : Dev nD) → (b : Ref sig .tc) → Buf (Elt Ideal) ((c : Thread nD τ).loc b))

/-! ## The input blocks as entries of the arrays -/

/-- The feature block at point t, entry (p, j), is the feature array at row 1000 t + p, column j: a block's coordinate
    is its index times its extent plus the coordinate inside it. -/
theorem iblk0_0_apply (c : Dev nD) (t : Fin cfg0.N) (p : Fin 1000) (j : Fin 128) (a : Fin 10000)
    (ha : a.val = 1000 * t.val + p.val) :
    (iblk0 V c 0 t : Vec Ideal S1000x128 .f32) (ix2 p j) = (V c main_arg1 : S10000x128.Idx → Elt Ideal .f32) (ix2 a j) := by
  obtain ⟨e0, e1⟩ := idx0_0 t
  unfold iblk0
  rw [View.read_apply]
  show V c main_arg1 _ = V c main_arg1 _
  congr 1
  funext ax
  apply Fin.ext
  match ax with
  | ⟨0, _⟩ => show win0_0.index t (0 : Fin 2) * 1000 + 1 * p.val = a.val; rw [e0, ha]; omega
  | ⟨1, _⟩ => show win0_0.index t (1 : Fin 2) * 128 + 1 * j.val = j.val; rw [e1]; omega

/-- The weight block at every point is the weight array. -/
theorem iblk0_1_apply (c : Dev nD) (t : Fin cfg0.N) (j k : Fin 128) :
    (iblk0 V c 1 t : Vec Ideal S128x128 .f32) (ix2 j k) = (V c main_arg2 : S128x128.Idx → Elt Ideal .f32) (ix2 j k) := by
  obtain ⟨e0, e1⟩ := idx0_1 t
  unfold iblk0
  rw [View.read_apply]
  show V c main_arg2 _ = V c main_arg2 _
  congr 1
  funext ax
  apply Fin.ext
  match ax with
  | ⟨0, _⟩ => show win0_1.index t (0 : Fin 2) * 128 + 1 * j.val = j.val; rw [e0]; omega
  | ⟨1, _⟩ => show win0_1.index t (1 : Fin 2) * 128 + 1 * k.val = k.val; rw [e1]; omega

/-- The first attention column's block at every point is that column. -/
theorem iblk0_2_apply (c : Dev nD) (t : Fin cfg0.N) (k : Fin 128) (u : Fin 1) :
    (iblk0 V c 2 t : Vec Ideal S128x1 .f32) (ix2 k u) = (V c main_call0_v1 : S128x1.Idx → Elt Ideal .f32) (ix2 k u) := by
  obtain ⟨e0, e1⟩ := idx0_2 t
  unfold iblk0
  rw [View.read_apply]
  show V c main_call0_v1 _ = V c main_call0_v1 _
  congr 1
  funext ax
  apply Fin.ext
  match ax with
  | ⟨0, _⟩ => show win0_2.index t (0 : Fin 2) * 128 + 1 * k.val = k.val; rw [e0]; omega
  | ⟨1, _⟩ => show win0_2.index t (1 : Fin 2) * 1 + 1 * u.val = u.val; rw [e1]; omega

/-- The second attention column's block at every point is that column. -/
theorem iblk0_3_apply (c : Dev nD) (t : Fin cfg0.N) (k : Fin 128) (u : Fin 1) :
    (iblk0 V c 3 t : Vec Ideal S128x1 .f32) (ix2 k u) = (V c main_call0_v3 : S128x1.Idx → Elt Ideal .f32) (ix2 k u) := by
  obtain ⟨e0, e1⟩ := idx0_3 t
  unfold iblk0
  rw [View.read_apply]
  show V c main_call0_v3 _ = V c main_call0_v3 _
  congr 1
  funext ax
  apply Fin.ext
  match ax with
  | ⟨0, _⟩ => show win0_3.index t (0 : Fin 2) * 128 + 1 * k.val = k.val; rw [e0]; omega
  | ⟨1, _⟩ => show win0_3.index t (1 : Fin 2) * 1 + 1 * u.val = u.val; rw [e1]; omega

/-! ## The body's values at a point, as the layer's per-node values at the point's rows -/

/-- The first product at point t, entry (p, k), is the projected feature of node 1000 t + p. -/
theorem blk_wh (c : Dev nD) (t : Fin cfg0.N) (p : Fin 1000) (k : Fin 128) (a : Fin 10000) (b : Fin 128)
    (ha : a.val = 1000 * t.val + p.val) (hb : b.val = k.val) :
    k0_pay2 (iblk0 V c 0 t) (iblk0 V c 1 t) (ix2 p k) = Cert.Gat.wh (V c main_arg1) (V c main_arg2) a b := by
  obtain rfl : b = k := Fin.ext hb
  refine (pay2_apply _ _ p b).trans ?_
  unfold Cert.Gat.wh
  exact Finset.sum_congr rfl fun j _ =>
    congrArg₂ (· * ·) (iblk0_0_apply V c t p j a ha) (iblk0_1_apply V c t j b)

/-- The second product at point t, row p, against an attention column, is node 1000 t + p's score against it. -/
theorem blk_score (c : Dev nD) (t : Fin cfg0.N) (p : Fin 1000) (u : Fin 1) (a : Fin 10000)
    (ha : a.val = 1000 * t.val + p.val) (x2 : Vec Ideal S128x1 .f32) (A : S128x1.Idx → Elt Ideal .f32)
    (hA : ∀ k : Fin 128, x2 (ix2 k 0) = A (ix2 k 0)) :
    k0_pay4 (iblk0 V c 0 t) (iblk0 V c 1 t) x2 (ix2 p u) = Cert.Gat.score (V c main_arg1) (V c main_arg2) A a := by
  refine (pay4_apply _ _ _ p u).trans ?_
  unfold Cert.Gat.score
  exact Finset.sum_congr rfl fun k _ => congrArg₂ (· * ·) (blk_wh V c t p k a k ha rfl) (hA k)

/-- exp of zero minus that score. -/
theorem blk_expNeg (c : Dev nD) (t : Fin cfg0.N) (p : Fin 1000) (u : Fin 1) (a : Fin 10000)
    (ha : a.val = 1000 * t.val + p.val) (x2 : Vec Ideal S128x1 .f32) (A : S128x1.Idx → Elt Ideal .f32)
    (hA : ∀ k : Fin 128, x2 (ix2 k 0) = A (ix2 k 0)) :
    k0_pay6 (iblk0 V c 0 t) (iblk0 V c 1 t) x2 (ix2 p u)
      = Ideal.exp (0 - Cert.Gat.score (V c main_arg1) (V c main_arg2) A a) :=
  (pay6_apply _ _ _ p u).trans (congrArg (fun s => Ideal.exp (0 - s)) (blk_score V c t p u a ha x2 A hA))

/-- exp of the negated slope times that score. -/
theorem blk_expSlope (c : Dev nD) (t : Fin cfg0.N) (p : Fin 1000) (u : Fin 1) (a : Fin 10000)
    (ha : a.val = 1000 * t.val + p.val) (x2 : Vec Ideal S128x1 .f32) (A : S128x1.Idx → Elt Ideal .f32)
    (hA : ∀ k : Fin 128, x2 (ix2 k 0) = A (ix2 k 0)) :
    k0_pay7 (iblk0 V c 0 t) (iblk0 V c 1 t) x2 (ix2 p u)
      = Ideal.exp (Cert.Gat.nslope * Cert.Gat.score (V c main_arg1) (V c main_arg2) A a) :=
  (pay7_apply _ _ _ p u).trans (congrArg (fun s => Ideal.exp (Cert.Gat.nslope * s)) (blk_score V c t p u a ha x2 A hA))

/-- Zero minus that score. -/
theorem blk_neg (c : Dev nD) (t : Fin cfg0.N) (p : Fin 1000) (u : Fin 1) (a : Fin 10000)
    (ha : a.val = 1000 * t.val + p.val) (x2 : Vec Ideal S128x1 .f32) (A : S128x1.Idx → Elt Ideal .f32)
    (hA : ∀ k : Fin 128, x2 (ix2 k 0) = A (ix2 k 0)) :
    k0_pay8 (iblk0 V c 0 t) (iblk0 V c 1 t) x2 (ix2 p u)
      = 0 - Cert.Gat.score (V c main_arg1) (V c main_arg2) A a :=
  (pay8_apply _ _ _ p u).trans (congrArg (fun s => 0 - s) (blk_score V c t p u a ha x2 A hA))

/-- exp of zero minus that score, as the body forms it a second time. -/
theorem blk_expNeg' (c : Dev nD) (t : Fin cfg0.N) (p : Fin 1000) (u : Fin 1) (a : Fin 10000)
    (ha : a.val = 1000 * t.val + p.val) (x2 : Vec Ideal S128x1 .f32) (A : S128x1.Idx → Elt Ideal .f32)
    (hA : ∀ k : Fin 128, x2 (ix2 k 0) = A (ix2 k 0)) :
    k0_pay9 (iblk0 V c 0 t) (iblk0 V c 1 t) x2 (ix2 p u)
      = Ideal.exp (0 - Cert.Gat.score (V c main_arg1) (V c main_arg2) A a) :=
  (pay9_apply _ _ _ p u).trans (congrArg (fun s => Ideal.exp (0 - s)) (blk_score V c t p u a ha x2 A hA))

/-- exp of the negated slope times that score, formed from the second product. -/
theorem blk_expSlope' (c : Dev nD) (t : Fin cfg0.N) (p : Fin 1000) (u : Fin 1) (a : Fin 10000)
    (ha : a.val = 1000 * t.val + p.val) (x2 : Vec Ideal S128x1 .f32) (A : S128x1.Idx → Elt Ideal .f32)
    (hA : ∀ k : Fin 128, x2 (ix2 k 0) = A (ix2 k 0)) :
    k0_pay1 (k0_pay5 (iblk0 V c 0 t) (iblk0 V c 1 t) x2) (ix2 p u)
      = Ideal.exp (Cert.Gat.nslope * Cert.Gat.score (V c main_arg1) (V c main_arg2) A a) :=
  (pay1_apply _ p u).trans (congrArg (fun s => Ideal.exp (Cert.Gat.nslope * s)) (blk_score V c t p u a ha x2 A hA))

/-! ## The write-backs, the cover, and the arrays after the region -/

/-- An index of output 0's array is in point t's block iff each coordinate is in the block's range on its axis. -/
theorem mem_blk4 (t : Fin cfg0.N) (i : S10000x128.Idx) :
    i ∈ ((cfg0.win 4).blk t).view.set ↔ ∀ a : Fin 2, win0_4.index t a * S1000x128.size a ≤ (i a).val ∧ (i a).val < win0_4.index t a * S1000x128.size a + S1000x128.size a := by
  show i ∈ ((View.whole main_call0_v4_0).slice (win0_4.rect t)).set ↔ _
  rw [View.set_slice_whole, Rect.mem_set_unit]
  exact Iff.rfl

/-- Row r lies in the block of point r / 1000: the blocks fill the array. -/
theorem cover4 (i : S10000x128.Idx) :
    ∃ t : Fin cfg0.N, (cfg0.win 4).flush t = true ∧ i ∈ ((cfg0.win 4).blk t).view.set := by
  have h0 : (i 0).val < 10000 := (i 0).isLt
  have h1 : (i 1).val < 128 := (i 1).isLt
  have hN : grid0.N = 10 := N_0
  obtain ⟨t, ht⟩ : ∃ t : Fin cfg0.N, t.val = (i 0).val / 1000 :=
    ⟨⟨(i 0).val / 1000, by show _ < grid0.N; omega⟩, rfl⟩
  obtain ⟨e0, e1⟩ := idx0_4 t
  refine ⟨t, flush0_4 t, ?_⟩
  rw [mem_blk4]
  intro ax
  match ax with
  | ⟨0, _⟩ =>
    show win0_4.index t (0 : Fin 2) * 1000 ≤ (i 0).val ∧ (i 0).val < win0_4.index t (0 : Fin 2) * 1000 + 1000
    rw [e0, ht]; omega
  | ⟨1, _⟩ =>
    show win0_4.index t (1 : Fin 2) * 128 ≤ (i 1).val ∧ (i 1).val < win0_4.index t (1 : Fin 2) * 128 + 128
    rw [e1]; omega

/-- What point t writes back to output 0 is block t of the projected features. -/
theorem flushed4_eq (c : Dev nD) (t : Fin cfg0.N) :
    (dat0 V c).flushed 4 t
      = ((cfg0.win 4).blk t).view.read (Elt Ideal) (Cert.Gat.whA (V c main_arg1) (V c main_arg2)) := by
  show (cfg0.win 4).cut (grid0.coords t) ((dat0 V c).after 4 t) = _
  rw [after0_4]
  unfold out0_4
  rw [View.canon_unit_zero hz]
  simp only [View.ld_unit_zero (S := S1000x128) hz, View.ld_unit_zero (S := S128x128) hz]
  obtain ⟨e0, e1⟩ := idx0_4 t
  funext j
  obtain ⟨p, k, rfl⟩ : ∃ (p : Fin 1000) (k : Fin 128), j = ix2 p k := ⟨j 0, j 1, eq_ix2 j⟩
  show k0_pay2 (iblk0 V c 0 t) (iblk0 V c 1 t) (ix2 p k)
    = Cert.Gat.wh (V c main_arg1) (V c main_arg2) ((((cfg0.win 4).blk t).view.emb (ix2 p k)) 0)
        ((((cfg0.win 4).blk t).view.emb (ix2 p k)) 1)
  exact blk_wh V c t p k _ _
    (by show win0_4.index t (0 : Fin 2) * 1000 + 1 * p.val = _; rw [e0]; omega)
    (by show win0_4.index t (1 : Fin 2) * 128 + 1 * k.val = _; rw [e1]; omega)

/-- Output 0 after the region: the projected features. -/
theorem arr4 (c : Dev nD) : (dat0 V c).arrAt 4 cfg0.N = Cert.Gat.whA (V c main_arg1) (V c main_arg2) :=
  (dat0 V c).arrAt_eq_of_cover 4 _ (fun t _ => flushed4_eq V c t) cover4

/-- An index of output 1's array is in point t's block iff each coordinate is in the block's range on its axis. -/
theorem mem_blk5 (t : Fin cfg0.N) (i : S10000x1.Idx) :
    i ∈ ((cfg0.win 5).blk t).view.set ↔ ∀ a : Fin 2, win0_5.index t a * S1000x1.size a ≤ (i a).val ∧ (i a).val < win0_5.index t a * S1000x1.size a + S1000x1.size a := by
  show i ∈ ((View.whole main_call0_v4_1).slice (win0_5.rect t)).set ↔ _
  rw [View.set_slice_whole, Rect.mem_set_unit]
  exact Iff.rfl

/-- Row r lies in the block of point r / 1000: the blocks fill the array. -/
theorem cover5 (i : S10000x1.Idx) :
    ∃ t : Fin cfg0.N, (cfg0.win 5).flush t = true ∧ i ∈ ((cfg0.win 5).blk t).view.set := by
  have h0 : (i 0).val < 10000 := (i 0).isLt
  have h1 : (i 1).val < 1 := (i 1).isLt
  have hN : grid0.N = 10 := N_0
  obtain ⟨t, ht⟩ : ∃ t : Fin cfg0.N, t.val = (i 0).val / 1000 :=
    ⟨⟨(i 0).val / 1000, by show _ < grid0.N; omega⟩, rfl⟩
  obtain ⟨e0, e1⟩ := idx0_5 t
  refine ⟨t, flush0_5 t, ?_⟩
  rw [mem_blk5]
  intro ax
  match ax with
  | ⟨0, _⟩ =>
    show win0_5.index t (0 : Fin 2) * 1000 ≤ (i 0).val ∧ (i 0).val < win0_5.index t (0 : Fin 2) * 1000 + 1000
    rw [e0, ht]; omega
  | ⟨1, _⟩ =>
    show win0_5.index t (1 : Fin 2) * 1 ≤ (i 1).val ∧ (i 1).val < win0_5.index t (1 : Fin 2) * 1 + 1
    rw [e1]; omega

/-- What point t writes back to output 1 is block t of the scores against the first attention column. -/
theorem flushed5_eq (c : Dev nD) (t : Fin cfg0.N) :
    (dat0 V c).flushed 5 t
      = ((cfg0.win 5).blk t).view.read (Elt Ideal)
          (Cert.Gat.scoreA (V c main_arg1) (V c main_arg2) (V c main_call0_v1)) := by
  show (cfg0.win 5).cut (grid0.coords t) ((dat0 V c).after 5 t) = _
  rw [after0_5]
  unfold out0_5
  rw [View.canon_unit_zero hz]
  simp only [View.ld_unit_zero (S := S1000x128) hz, View.ld_unit_zero (S := S128x128) hz,
    View.ld_unit_zero (S := S128x1) hz]
  obtain ⟨e0, e1⟩ := idx0_5 t
  funext j
  obtain ⟨p, u, rfl⟩ : ∃ (p : Fin 1000) (u : Fin 1), j = ix2 p u := ⟨j 0, j 1, eq_ix2 j⟩
  show k0_pay4 (iblk0 V c 0 t) (iblk0 V c 1 t) (iblk0 V c 2 t) (ix2 p u)
    = (Cert.Gat.score (V c main_arg1) (V c main_arg2) (V c main_call0_v1) ((((cfg0.win 5).blk t).view.emb (ix2 p u)) 0))
  exact blk_score V c t p u _
    (by show win0_5.index t (0 : Fin 2) * 1000 + 1 * p.val = _; rw [e0]; omega)
    _ _ (fun k => iblk0_2_apply V c t k 0)

/-- Output 1 after the region: the scores against the first attention column. -/
theorem arr5 (c : Dev nD) :
    (dat0 V c).arrAt 5 cfg0.N = Cert.Gat.scoreA (V c main_arg1) (V c main_arg2) (V c main_call0_v1) :=
  (dat0 V c).arrAt_eq_of_cover 5 _ (fun t _ => flushed5_eq V c t) cover5

/-- An index of output 2's array is in point t's block iff each coordinate is in the block's range on its axis. -/
theorem mem_blk6 (t : Fin cfg0.N) (i : S10000x1.Idx) :
    i ∈ ((cfg0.win 6).blk t).view.set ↔ ∀ a : Fin 2, win0_6.index t a * S1000x1.size a ≤ (i a).val ∧ (i a).val < win0_6.index t a * S1000x1.size a + S1000x1.size a := by
  show i ∈ ((View.whole main_call0_v4_2).slice (win0_6.rect t)).set ↔ _
  rw [View.set_slice_whole, Rect.mem_set_unit]
  exact Iff.rfl

/-- Row r lies in the block of point r / 1000: the blocks fill the array. -/
theorem cover6 (i : S10000x1.Idx) :
    ∃ t : Fin cfg0.N, (cfg0.win 6).flush t = true ∧ i ∈ ((cfg0.win 6).blk t).view.set := by
  have h0 : (i 0).val < 10000 := (i 0).isLt
  have h1 : (i 1).val < 1 := (i 1).isLt
  have hN : grid0.N = 10 := N_0
  obtain ⟨t, ht⟩ : ∃ t : Fin cfg0.N, t.val = (i 0).val / 1000 :=
    ⟨⟨(i 0).val / 1000, by show _ < grid0.N; omega⟩, rfl⟩
  obtain ⟨e0, e1⟩ := idx0_6 t
  refine ⟨t, flush0_6 t, ?_⟩
  rw [mem_blk6]
  intro ax
  match ax with
  | ⟨0, _⟩ =>
    show win0_6.index t (0 : Fin 2) * 1000 ≤ (i 0).val ∧ (i 0).val < win0_6.index t (0 : Fin 2) * 1000 + 1000
    rw [e0, ht]; omega
  | ⟨1, _⟩ =>
    show win0_6.index t (1 : Fin 2) * 1 ≤ (i 1).val ∧ (i 1).val < win0_6.index t (1 : Fin 2) * 1 + 1
    rw [e1]; omega

/-- What point t writes back to output 2 is block t of exp of the negated scores against the first attention column. -/
theorem flushed6_eq (c : Dev nD) (t : Fin cfg0.N) :
    (dat0 V c).flushed 6 t
      = ((cfg0.win 6).blk t).view.read (Elt Ideal)
          (Cert.Gat.expNegA (V c main_arg1) (V c main_arg2) (V c main_call0_v1)) := by
  show (cfg0.win 6).cut (grid0.coords t) ((dat0 V c).after 6 t) = _
  rw [after0_6]
  unfold out0_6
  rw [View.canon_unit_zero hz]
  simp only [View.ld_unit_zero (S := S1000x128) hz, View.ld_unit_zero (S := S128x128) hz,
    View.ld_unit_zero (S := S128x1) hz]
  obtain ⟨e0, e1⟩ := idx0_6 t
  funext j
  obtain ⟨p, u, rfl⟩ : ∃ (p : Fin 1000) (u : Fin 1), j = ix2 p u := ⟨j 0, j 1, eq_ix2 j⟩
  show k0_pay6 (iblk0 V c 0 t) (iblk0 V c 1 t) (iblk0 V c 2 t) (ix2 p u)
    = Ideal.exp (0 - (Cert.Gat.score (V c main_arg1) (V c main_arg2) (V c main_call0_v1) ((((cfg0.win 6).blk t).view.emb (ix2 p u)) 0)))
  exact blk_expNeg V c t p u _
    (by show win0_6.index t (0 : Fin 2) * 1000 + 1 * p.val = _; rw [e0]; omega)
    _ _ (fun k => iblk0_2_apply V c t k 0)

/-- Output 2 after the region: exp of the negated scores against the first attention column. -/
theorem arr6 (c : Dev nD) :
    (dat0 V c).arrAt 6 cfg0.N = Cert.Gat.expNegA (V c main_arg1) (V c main_arg2) (V c main_call0_v1) :=
  (dat0 V c).arrAt_eq_of_cover 6 _ (fun t _ => flushed6_eq V c t) cover6

/-- An index of output 3's array is in point t's block iff each coordinate is in the block's range on its axis. -/
theorem mem_blk7 (t : Fin cfg0.N) (i : S10000x1.Idx) :
    i ∈ ((cfg0.win 7).blk t).view.set ↔ ∀ a : Fin 2, win0_7.index t a * S1000x1.size a ≤ (i a).val ∧ (i a).val < win0_7.index t a * S1000x1.size a + S1000x1.size a := by
  show i ∈ ((View.whole main_call0_v4_3).slice (win0_7.rect t)).set ↔ _
  rw [View.set_slice_whole, Rect.mem_set_unit]
  exact Iff.rfl

/-- Row r lies in the block of point r / 1000: the blocks fill the array. -/
theorem cover7 (i : S10000x1.Idx) :
    ∃ t : Fin cfg0.N, (cfg0.win 7).flush t = true ∧ i ∈ ((cfg0.win 7).blk t).view.set := by
  have h0 : (i 0).val < 10000 := (i 0).isLt
  have h1 : (i 1).val < 1 := (i 1).isLt
  have hN : grid0.N = 10 := N_0
  obtain ⟨t, ht⟩ : ∃ t : Fin cfg0.N, t.val = (i 0).val / 1000 :=
    ⟨⟨(i 0).val / 1000, by show _ < grid0.N; omega⟩, rfl⟩
  obtain ⟨e0, e1⟩ := idx0_7 t
  refine ⟨t, flush0_7 t, ?_⟩
  rw [mem_blk7]
  intro ax
  match ax with
  | ⟨0, _⟩ =>
    show win0_7.index t (0 : Fin 2) * 1000 ≤ (i 0).val ∧ (i 0).val < win0_7.index t (0 : Fin 2) * 1000 + 1000
    rw [e0, ht]; omega
  | ⟨1, _⟩ =>
    show win0_7.index t (1 : Fin 2) * 1 ≤ (i 1).val ∧ (i 1).val < win0_7.index t (1 : Fin 2) * 1 + 1
    rw [e1]; omega

/-- What point t writes back to output 3 is block t of exp of the slope-scaled scores against the first attention column. -/
theorem flushed7_eq (c : Dev nD) (t : Fin cfg0.N) :
    (dat0 V c).flushed 7 t
      = ((cfg0.win 7).blk t).view.read (Elt Ideal)
          (Cert.Gat.expSlopeA (V c main_arg1) (V c main_arg2) (V c main_call0_v1)) := by
  show (cfg0.win 7).cut (grid0.coords t) ((dat0 V c).after 7 t) = _
  rw [after0_7]
  unfold out0_7
  rw [View.canon_unit_zero hz]
  simp only [View.ld_unit_zero (S := S1000x128) hz, View.ld_unit_zero (S := S128x128) hz,
    View.ld_unit_zero (S := S128x1) hz]
  obtain ⟨e0, e1⟩ := idx0_7 t
  funext j
  obtain ⟨p, u, rfl⟩ : ∃ (p : Fin 1000) (u : Fin 1), j = ix2 p u := ⟨j 0, j 1, eq_ix2 j⟩
  show k0_pay7 (iblk0 V c 0 t) (iblk0 V c 1 t) (iblk0 V c 2 t) (ix2 p u)
    = Ideal.exp (Cert.Gat.nslope * (Cert.Gat.score (V c main_arg1) (V c main_arg2) (V c main_call0_v1) ((((cfg0.win 7).blk t).view.emb (ix2 p u)) 0)))
  exact blk_expSlope V c t p u _
    (by show win0_7.index t (0 : Fin 2) * 1000 + 1 * p.val = _; rw [e0]; omega)
    _ _ (fun k => iblk0_2_apply V c t k 0)

/-- Output 3 after the region: exp of the slope-scaled scores against the first attention column. -/
theorem arr7 (c : Dev nD) :
    (dat0 V c).arrAt 7 cfg0.N = Cert.Gat.expSlopeA (V c main_arg1) (V c main_arg2) (V c main_call0_v1) :=
  (dat0 V c).arrAt_eq_of_cover 7 _ (fun t _ => flushed7_eq V c t) cover7

/-- An index of output 4's array is in point t's block iff each coordinate is in the block's range on its axis. -/
theorem mem_blk8 (t : Fin cfg0.N) (i : S10000x1.Idx) :
    i ∈ ((cfg0.win 8).blk t).view.set ↔ ∀ a : Fin 2, win0_8.index t a * S1000x1.size a ≤ (i a).val ∧ (i a).val < win0_8.index t a * S1000x1.size a + S1000x1.size a := by
  show i ∈ ((View.whole main_call0_v4_4).slice (win0_8.rect t)).set ↔ _
  rw [View.set_slice_whole, Rect.mem_set_unit]
  exact Iff.rfl

/-- Row r lies in the block of point r / 1000: the blocks fill the array. -/
theorem cover8 (i : S10000x1.Idx) :
    ∃ t : Fin cfg0.N, (cfg0.win 8).flush t = true ∧ i ∈ ((cfg0.win 8).blk t).view.set := by
  have h0 : (i 0).val < 10000 := (i 0).isLt
  have h1 : (i 1).val < 1 := (i 1).isLt
  have hN : grid0.N = 10 := N_0
  obtain ⟨t, ht⟩ : ∃ t : Fin cfg0.N, t.val = (i 0).val / 1000 :=
    ⟨⟨(i 0).val / 1000, by show _ < grid0.N; omega⟩, rfl⟩
  obtain ⟨e0, e1⟩ := idx0_8 t
  refine ⟨t, flush0_8 t, ?_⟩
  rw [mem_blk8]
  intro ax
  match ax with
  | ⟨0, _⟩ =>
    show win0_8.index t (0 : Fin 2) * 1000 ≤ (i 0).val ∧ (i 0).val < win0_8.index t (0 : Fin 2) * 1000 + 1000
    rw [e0, ht]; omega
  | ⟨1, _⟩ =>
    show win0_8.index t (1 : Fin 2) * 1 ≤ (i 1).val ∧ (i 1).val < win0_8.index t (1 : Fin 2) * 1 + 1
    rw [e1]; omega

/-- What point t writes back to output 4 is block t of the negated scores against the second attention column. -/
theorem flushed8_eq (c : Dev nD) (t : Fin cfg0.N) :
    (dat0 V c).flushed 8 t
      = ((cfg0.win 8).blk t).view.read (Elt Ideal)
          (Cert.Gat.negA (V c main_arg1) (V c main_arg2) (V c main_call0_v3)) := by
  show (cfg0.win 8).cut (grid0.coords t) ((dat0 V c).after 8 t) = _
  rw [after0_8]
  unfold out0_8
  rw [View.canon_unit_zero hz]
  simp only [View.ld_unit_zero (S := S1000x128) hz, View.ld_unit_zero (S := S128x128) hz,
    View.ld_unit_zero (S := S128x1) hz]
  obtain ⟨e0, e1⟩ := idx0_8 t
  funext j
  obtain ⟨p, u, rfl⟩ : ∃ (p : Fin 1000) (u : Fin 1), j = ix2 p u := ⟨j 0, j 1, eq_ix2 j⟩
  show k0_pay8 (iblk0 V c 0 t) (iblk0 V c 1 t) (iblk0 V c 3 t) (ix2 p u)
    = 0 - (Cert.Gat.score (V c main_arg1) (V c main_arg2) (V c main_call0_v3) ((((cfg0.win 8).blk t).view.emb (ix2 p u)) 0))
  exact blk_neg V c t p u _
    (by show win0_8.index t (0 : Fin 2) * 1000 + 1 * p.val = _; rw [e0]; omega)
    _ _ (fun k => iblk0_3_apply V c t k 0)

/-- Output 4 after the region: the negated scores against the second attention column. -/
theorem arr8 (c : Dev nD) :
    (dat0 V c).arrAt 8 cfg0.N = Cert.Gat.negA (V c main_arg1) (V c main_arg2) (V c main_call0_v3) :=
  (dat0 V c).arrAt_eq_of_cover 8 _ (fun t _ => flushed8_eq V c t) cover8

/-- An index of output 5's array is in point t's block iff each coordinate is in the block's range on its axis. -/
theorem mem_blk9 (t : Fin cfg0.N) (i : S10000x1.Idx) :
    i ∈ ((cfg0.win 9).blk t).view.set ↔ ∀ a : Fin 2, win0_9.index t a * S1000x1.size a ≤ (i a).val ∧ (i a).val < win0_9.index t a * S1000x1.size a + S1000x1.size a := by
  show i ∈ ((View.whole main_call0_v4_5).slice (win0_9.rect t)).set ↔ _
  rw [View.set_slice_whole, Rect.mem_set_unit]
  exact Iff.rfl

/-- Row r lies in the block of point r / 1000: the blocks fill the array. -/
theorem cover9 (i : S10000x1.Idx) :
    ∃ t : Fin cfg0.N, (cfg0.win 9).flush t = true ∧ i ∈ ((cfg0.win 9).blk t).view.set := by
  have h0 : (i 0).val < 10000 := (i 0).isLt
  have h1 : (i 1).val < 1 := (i 1).isLt
  have hN : grid0.N = 10 := N_0
  obtain ⟨t, ht⟩ : ∃ t : Fin cfg0.N, t.val = (i 0).val / 1000 :=
    ⟨⟨(i 0).val / 1000, by show _ < grid0.N; omega⟩, rfl⟩
  obtain ⟨e0, e1⟩ := idx0_9 t
  refine ⟨t, flush0_9 t, ?_⟩
  rw [mem_blk9]
  intro ax
  match ax with
  | ⟨0, _⟩ =>
    show win0_9.index t (0 : Fin 2) * 1000 ≤ (i 0).val ∧ (i 0).val < win0_9.index t (0 : Fin 2) * 1000 + 1000
    rw [e0, ht]; omega
  | ⟨1, _⟩ =>
    show win0_9.index t (1 : Fin 2) * 1 ≤ (i 1).val ∧ (i 1).val < win0_9.index t (1 : Fin 2) * 1 + 1
    rw [e1]; omega

/-- What point t writes back to output 5 is block t of exp of the negated scores against the second attention column. -/
theorem flushed9_eq (c : Dev nD) (t : Fin cfg0.N) :
    (dat0 V c).flushed 9 t
      = ((cfg0.win 9).blk t).view.read (Elt Ideal)
          (Cert.Gat.expNegA (V c main_arg1) (V c main_arg2) (V c main_call0_v3)) := by
  show (cfg0.win 9).cut (grid0.coords t) ((dat0 V c).after 9 t) = _
  rw [after0_9]
  unfold out0_9
  rw [View.canon_unit_zero hz]
  simp only [View.ld_unit_zero (S := S1000x128) hz, View.ld_unit_zero (S := S128x128) hz,
    View.ld_unit_zero (S := S128x1) hz]
  obtain ⟨e0, e1⟩ := idx0_9 t
  funext j
  obtain ⟨p, u, rfl⟩ : ∃ (p : Fin 1000) (u : Fin 1), j = ix2 p u := ⟨j 0, j 1, eq_ix2 j⟩
  show k0_pay9 (iblk0 V c 0 t) (iblk0 V c 1 t) (iblk0 V c 3 t) (ix2 p u)
    = Ideal.exp (0 - (Cert.Gat.score (V c main_arg1) (V c main_arg2) (V c main_call0_v3) ((((cfg0.win 9).blk t).view.emb (ix2 p u)) 0)))
  exact blk_expNeg' V c t p u _
    (by show win0_9.index t (0 : Fin 2) * 1000 + 1 * p.val = _; rw [e0]; omega)
    _ _ (fun k => iblk0_3_apply V c t k 0)

/-- Output 5 after the region: exp of the negated scores against the second attention column. -/
theorem arr9 (c : Dev nD) :
    (dat0 V c).arrAt 9 cfg0.N = Cert.Gat.expNegA (V c main_arg1) (V c main_arg2) (V c main_call0_v3) :=
  (dat0 V c).arrAt_eq_of_cover 9 _ (fun t _ => flushed9_eq V c t) cover9

/-- An index of output 6's array is in point t's block iff each coordinate is in the block's range on its axis. -/
theorem mem_blk10 (t : Fin cfg0.N) (i : S10000x1.Idx) :
    i ∈ ((cfg0.win 10).blk t).view.set ↔ ∀ a : Fin 2, win0_10.index t a * S1000x1.size a ≤ (i a).val ∧ (i a).val < win0_10.index t a * S1000x1.size a + S1000x1.size a := by
  show i ∈ ((View.whole main_call0_v4_6).slice (win0_10.rect t)).set ↔ _
  rw [View.set_slice_whole, Rect.mem_set_unit]
  exact Iff.rfl

/-- Row r lies in the block of point r / 1000: the blocks fill the array. -/
theorem cover10 (i : S10000x1.Idx) :
    ∃ t : Fin cfg0.N, (cfg0.win 10).flush t = true ∧ i ∈ ((cfg0.win 10).blk t).view.set := by
  have h0 : (i 0).val < 10000 := (i 0).isLt
  have h1 : (i 1).val < 1 := (i 1).isLt
  have hN : grid0.N = 10 := N_0
  obtain ⟨t, ht⟩ : ∃ t : Fin cfg0.N, t.val = (i 0).val / 1000 :=
    ⟨⟨(i 0).val / 1000, by show _ < grid0.N; omega⟩, rfl⟩
  obtain ⟨e0, e1⟩ := idx0_10 t
  refine ⟨t, flush0_10 t, ?_⟩
  rw [mem_blk10]
  intro ax
  match ax with
  | ⟨0, _⟩ =>
    show win0_10.index t (0 : Fin 2) * 1000 ≤ (i 0).val ∧ (i 0).val < win0_10.index t (0 : Fin 2) * 1000 + 1000
    rw [e0, ht]; omega
  | ⟨1, _⟩ =>
    show win0_10.index t (1 : Fin 2) * 1 ≤ (i 1).val ∧ (i 1).val < win0_10.index t (1 : Fin 2) * 1 + 1
    rw [e1]; omega

/-- What point t writes back to output 6 is block t of exp of the slope-scaled scores against the second attention column. -/
theorem flushed10_eq (c : Dev nD) (t : Fin cfg0.N) :
    (dat0 V c).flushed 10 t
      = ((cfg0.win 10).blk t).view.read (Elt Ideal)
          (Cert.Gat.expSlopeA (V c main_arg1) (V c main_arg2) (V c main_call0_v3)) := by
  show (cfg0.win 10).cut (grid0.coords t) ((dat0 V c).after 10 t) = _
  rw [after0_10]
  unfold out0_10
  rw [View.canon_unit_zero hz]
  simp only [View.ld_unit_zero (S := S1000x128) hz, View.ld_unit_zero (S := S128x128) hz,
    View.ld_unit_zero (S := S128x1) hz]
  obtain ⟨e0, e1⟩ := idx0_10 t
  funext j
  obtain ⟨p, u, rfl⟩ : ∃ (p : Fin 1000) (u : Fin 1), j = ix2 p u := ⟨j 0, j 1, eq_ix2 j⟩
  show k0_pay1 (k0_pay5 (iblk0 V c 0 t) (iblk0 V c 1 t) (iblk0 V c 3 t)) (ix2 p u)
    = Ideal.exp (Cert.Gat.nslope * (Cert.Gat.score (V c main_arg1) (V c main_arg2) (V c main_call0_v3) ((((cfg0.win 10).blk t).view.emb (ix2 p u)) 0)))
  exact blk_expSlope' V c t p u _
    (by show win0_10.index t (0 : Fin 2) * 1000 + 1 * p.val = _; rw [e0]; omega)
    _ _ (fun k => iblk0_3_apply V c t k 0)

/-- Output 6 after the region: exp of the slope-scaled scores against the second attention column. -/
theorem arr10 (c : Dev nD) :
    (dat0 V c).arrAt 10 cfg0.N = Cert.Gat.expSlopeA (V c main_arg1) (V c main_arg2) (V c main_call0_v3) :=
  (dat0 V c).arrAt_eq_of_cover 10 _ (fun t _ => flushed10_eq V c t) cover10

end Cert.KernelIdeal.Region0

end
-- ==== Proof.Region1.lean ====
/-
  The second kernel region as one array function.

  The region runs over 125 grid points. Point t loads rows 80 t … 80 t + 79 of the adjacency matrix and of the three
  per-node score columns, all of the three per-node rows and of the projected features, and stores 80 rows of the output.
  Here the body's arithmetic is read at one entry (p, d) of its 80 x 128 result:

    w(p, j)  = adj(p, j) * attK(fs p, u p, ua p; nf j, v j, va j)         the masked streaming weight
    out(p, d) = elu ( (sum_j w(p, j) wh(j, d)) / (sum_j w(p, j)) )

  then each loaded block is read as rows of its array (row p of block t is row 80 t + p), so that what point t writes
  back is block t of the streaming pass's array `Cert.Gat.G1` of the eight arrays the region finds; the 125 blocks cover the
  10000 rows, so the output array ends holding `Cert.Gat.G1` of them.
-/
import proofs.«175472_g21569325761082_cont_sun_m_1095_11_alg».proof.Proof.Gen.KernelIdeal.Frame
import proofs.«175472_g21569325761082_cont_sun_m_1095_11_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The operations that move entries, read at an entry -/

section Entry
variable {α : Type}

/-- A column of `a` entries repeated along rows of length `b`: the entry at (p, c) is the column's entry p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `a` entries laid out as a column: the entry at (i, 0) is the vector's entry i. -/
theorem cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Entry

/-- The product of an 80 x 10000 block with a 10000 x 128 array into the zero block: entry (p, d) is the sum over the
    10000 columns j of L(p, j) R(j, d). -/
theorem matmul_entry (L : FVec Ideal S80x10000 .bf16) (R : FVec Ideal S10000x128 .bf16) (p : Fin 80) (d : Fin 128) :
    matmul dot_S80x10000_S10000x128_S80x128_1_0_0_1_n_n none L R (constant (F := Ideal) S80x128 .f32 0x00000000#32) (ix2 p d)
      = ∑ j : Fin 10000, L (ix2 p j) * R (ix2 j d) := by
  refine (Ideal.matmul_constant_zero_apply _ none L R (ix2 p d)).trans ?_
  rw [← Equiv.sum_comp (contrEquiv1 dot_S80x10000_S10000x128_S80x128_1_0_0_1_n_n 10000 rfl rfl).symm]
  refine Finset.sum_congr rfl fun j _ => ?_
  congr 1
  · exact congrArg L (funext fun a => match a with | ⟨0, _⟩ => Fin.ext rfl | ⟨1, _⟩ => Fin.ext rfl)
  · exact congrArg R (funext fun a => match a with | ⟨0, _⟩ => Fin.ext rfl | ⟨1, _⟩ => Fin.ext rfl)

/-- The sum of an 80 x 10000 block along its rows: entry p is the sum over the 10000 columns j of x(p, j). -/
theorem rowsum_entry (x : FVec Ideal S80x10000 .f32) (p : Fin 80) :
    multiReduction (F := Ideal) .add [1] S80 x 0x00000000#32 reduces_S80x10000_S80 (.inl rfl) rfl (ix1 p)
      = ∑ j : Fin 10000, x (ix2 p j) :=
  (Ideal.multiReduction_add_single x _ reduces_S80x10000_S80 _ _ (ix1 p)).trans
    (Finset.sum_congr rfl fun k _ => congrArg x (funext fun a => match a with | ⟨0, _⟩ => Fin.ext rfl | ⟨1, _⟩ => Fin.ext rfl))

/-! ## The body's arithmetic at an entry -/

/-- The block of masked attention weights the body forms from its seven loads. -/
def ew (v0 v7 v14 : FVec Ideal S80x1 .f32) (v2 v9 v16 : FVec Ideal S1x10000 .f32) (v22 : FVec Ideal S80x10000 .f32) :
    FVec Ideal S80x10000 .f32 :=
  mulf v22 (select
    (cmpf .ogt (broadcastTo S80x10000 (shapeCast S80x1 v0 shapeCasts_S80x1_S80x1) broadcasts_S80x1_S80x10000)
      (broadcastTo S80x10000 (shapeCast S1x10000 v2 shapeCasts_S1x10000_S1x10000) broadcasts_S1x10000_S80x10000))
    (mulf (broadcastTo S80x10000 (shapeCast S80x1 v7 shapeCasts_S80x1_S80x1) broadcasts_S80x1_S80x10000)
      (broadcastTo S80x10000 (shapeCast S1x10000 v9 shapeCasts_S1x10000_S1x10000) broadcasts_S1x10000_S80x10000))
    (mulf (broadcastTo S80x10000 (shapeCast S80x1 v14 shapeCasts_S80x1_S80x1) broadcasts_S80x1_S80x10000)
      (broadcastTo S80x10000 (shapeCast S1x10000 v16 shapeCasts_S1x10000_S1x10000) broadcasts_S1x10000_S80x10000)))

/-- The quotient block: the product of the weight block with the feature array over the weight block's row sums. -/
def quot (v0 v7 v14 : FVec Ideal S80x1 .f32) (v2 v9 v16 : FVec Ideal S1x10000 .f32) (v22 : FVec Ideal S80x10000 .f32)
    (v25 : FVec Ideal S10000x128 .bf16) : FVec Ideal S80x128 .f32 :=
  divf
    (matmul dot_S80x10000_S10000x128_S80x128_1_0_0_1_n_n none (truncf .bf16 (ew v0 v7 v14 v2 v9 v16 v22) bitsLt_bf16_f32)
      (shapeCast S10000x128 v25 shapeCasts_S10000x128_S10000x128) (constant (F := Ideal) S80x128 .f32 0x00000000#32))
    (broadcastTo S80x128 (shapeCast S80x1 (multiReduction (F := Ideal) .add [1] S80 (ew v0 v7 v14 v2 v9 v16 v22) 0x00000000#32
      reduces_S80x10000_S80 (.inl rfl) rfl) shapeCasts_S80_S80x1) broadcasts_S80x1_S80x128)

/-- The exponential linear unit with its two constants still as words. -/
def eluW (x : EReal) : EReal :=
  Scalar.select (Ideal.cmp .ogt x (Ideal.ofBits .f32 0x00000000#32)) x (Ideal.exp x - Ideal.ofBits .f32 0x3F800000#32)

/-- The two words are 0 and 1. -/
theorem eluW_eq (x : EReal) : eluW x = Cert.Gat.elu x := by
  unfold eluW Cert.Gat.elu
  rw [Ideal.ofBits_zero_f32, Cert.Gat.ofBits_one]

section Payload

variable (v0 v7 v14 : Vec Ideal S80x1 .f32) (v2 v9 v16 : Vec Ideal S1x10000 .f32) (v22 : Vec Ideal S80x10000 .f32)
  (v25 : Vec Ideal S10000x128 .bf16)

/-- The weight block's entry (p, j): the adjacency entry times the streaming weight of the pair, from row p's three values
    and column j's three values. -/
theorem ew_apply (p : Fin 80) (j : Fin 10000) :
    ew v0 v7 v14 v2 v9 v16 v22 (ix2 p j)
      = v22 (ix2 p j) * Cert.Gat.attK (v0 (ix2 p 0)) (v7 (ix2 p 0)) (v14 (ix2 p 0)) (v2 (ix2 0 j)) (v9 (ix2 0 j)) (v16 (ix2 0 j)) := by
  unfold ew Cert.Gat.attK
  simp only [shapeCast_self, mulf_apply, select_apply, cmpf_apply, bcast_col, broadcastTo_1b_ab_apply]
  rfl

/-- The body's result is the exponential linear unit of the quotient block, entry by entry. -/
theorem pay_form (i : S80x128.Idx) : k1_pay1 v0 v2 v7 v9 v14 v16 v22 v25 i = eluW (quot v0 v7 v14 v2 v9 v16 v22 v25 i) := rfl

/-- The quotient block's entry (p, d): the weighted sum of column d of the features over the sum of the weights of row p. -/
theorem quot_apply (p : Fin 80) (d : Fin 128) :
    quot v0 v7 v14 v2 v9 v16 v22 v25 (ix2 p d)
      = Ideal.div
          (∑ j : Fin 10000, (v22 (ix2 p j) * Cert.Gat.attK (v0 (ix2 p 0)) (v7 (ix2 p 0)) (v14 (ix2 p 0)) (v2 (ix2 0 j)) (v9 (ix2 0 j)) (v16 (ix2 0 j))) * v25 (ix2 j d))
          (∑ j : Fin 10000, v22 (ix2 p j) * Cert.Gat.attK (v0 (ix2 p 0)) (v7 (ix2 p 0)) (v14 (ix2 p 0)) (v2 (ix2 0 j)) (v9 (ix2 0 j)) (v16 (ix2 0 j))) := by
  show Ideal.div
      (matmul dot_S80x10000_S10000x128_S80x128_1_0_0_1_n_n none (truncf .bf16 (ew v0 v7 v14 v2 v9 v16 v22) bitsLt_bf16_f32)
        (shapeCast S10000x128 v25 shapeCasts_S10000x128_S10000x128) (constant (F := Ideal) S80x128 .f32 0x00000000#32) (ix2 p d))
      (broadcastTo S80x128 (shapeCast S80x1 (multiReduction (F := Ideal) .add [1] S80 (ew v0 v7 v14 v2 v9 v16 v22) 0x00000000#32
        reduces_S80x10000_S80 (.inl rfl) rfl) shapeCasts_S80_S80x1) broadcasts_S80x1_S80x128 (ix2 p d)) = _
  rw [shapeCast_self, matmul_entry, bcast_col, cast_col, rowsum_entry]
  simp only [truncf_apply, ew_apply]

/-- THE BODY'S RESULT AT (p, d). -/
theorem pay_entry (p : Fin 80) (d : Fin 128) :
    k1_pay1 v0 v2 v7 v9 v14 v16 v22 v25 (ix2 p d)
      = Cert.Gat.elu (Ideal.div
          (∑ j : Fin 10000, (v22 (ix2 p j) * Cert.Gat.attK (v0 (ix2 p 0)) (v7 (ix2 p 0)) (v14 (ix2 p 0)) (v2 (ix2 0 j)) (v9 (ix2 0 j)) (v16 (ix2 0 j))) * v25 (ix2 j d))
          (∑ j : Fin 10000, v22 (ix2 p j) * Cert.Gat.attK (v0 (ix2 p 0)) (v7 (ix2 p 0)) (v14 (ix2 p 0)) (v2 (ix2 0 j)) (v9 (ix2 0 j)) (v16 (ix2 0 j)))) := by
  rw [pay_form, eluW_eq, quot_apply]

end Payload

/-! ## One flushed block as a block of the streaming pass's array -/

section OverPlain

open Cert.Gat in
/-- If the eight loaded blocks read the eight arrays at row r (the row blocks) and everywhere (the whole arrays), the body's
    result at (p, d) is the streaming pass's output at (r, d). -/
theorem blk_entry (x0 x7 x14 : Vec Ideal S80x1 .f32) (x2 x9 x16 : Vec Ideal S1x10000 .f32) (x22 : Vec Ideal S80x10000 .f32)
    (x25 : Vec Ideal S10000x128 .bf16)
    (ADJ : Snn.Idx → EReal) (FS U UA : Sn1.Idx → EReal) (NF VR VAR : S1n.Idx → EReal) (WH : Snd.Idx → EReal)
    (p : Fin 80) (d : Fin 128) (r : Fin 10000)
    (h22 : ∀ j : Fin 10000, x22 (ix2 p j) = ADJ (ix2 r j))
    (h0 : x0 (ix2 p 0) = FS (ix2 r 0)) (h7 : x7 (ix2 p 0) = U (ix2 r 0)) (h14 : x14 (ix2 p 0) = UA (ix2 r 0))
    (h2 : ∀ j : Fin 10000, x2 (ix2 0 j) = NF (ix2 0 j)) (h9 : ∀ j : Fin 10000, x9 (ix2 0 j) = VR (ix2 0 j))
    (h16 : ∀ j : Fin 10000, x16 (ix2 0 j) = VAR (ix2 0 j)) (h25 : ∀ j : Fin 10000, x25 (ix2 j d) = WH (ix2 j d)) :
    k1_pay1 x0 x2 x7 x9 x14 x16 x22 x25 (ix2 p d) = G1 ADJ FS U UA NF VR VAR WH (ix2 r d) := by
  rw [pay_entry]
  show _ = elu (Ideal.div
    (∑ j : Fin 10000, (ADJ (ix2 r j) * attK (FS (ix2 r 0)) (U (ix2 r 0)) (UA (ix2 r 0)) (NF (ix2 0 j)) (VR (ix2 0 j)) (VAR (ix2 0 j))) * WH (ix2 j d))
    (∑ j : Fin 10000, ADJ (ix2 r j) * attK (FS (ix2 r 0)) (U (ix2 r 0)) (UA (ix2 r 0)) (NF (ix2 0 j)) (VR (ix2 0 j)) (VAR (ix2 0 j))))
  simp only [h22, h0, h7, h14, h2, h9, h16, h25]

end OverPlain

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block windows (the adjacency stripe, the three score columns, the output)
    sit at block (t, 0) at point t, the whole-array windows at block (0, 0). -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_8.index t (0 : Fin 2) = t.val
    ∧ win1_8.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0 :=
  (by decide +kernel : ∀ t : Fin grid1.N, _)

/-- Input block 0 at point t, entry (p, j), is the array's entry at row 80 t + p. -/
theorem iblk0_apply (c : Dev nD) (t : Fin cfg1.N) (p : Fin 80) (j : Fin 10000) (r : Fin 10000) (hr : r.val = 80 * t.val + p.val) :
    (iblk1 V c 0 t : Vec Ideal S80x10000 .f32) (ix2 p j) = (V c main_arg0 : S10000x10000.Idx → Elt Ideal .f32) (ix2 r j) := by
  obtain ⟨e00, e01, e10, e11, e20, e21, e30, e31, e80, e81, e40, e41, e50, e51, e60, e61, e70, e71⟩ := idx_facts t
  unfold iblk1
  rw [View.read_apply]
  show V c main_arg0 _ = V c main_arg0 _
  congr 1
  funext a
  apply Fin.ext
  match a with
  | ⟨0, _⟩ => show win1_0.index t (0 : Fin 2) * 80 + 1 * p.val = r.val; rw [e00, hr]; omega
  | ⟨1, _⟩ => show win1_0.index t (1 : Fin 2) * 10000 + 1 * j.val = j.val; rw [e01]; omega

/-- Input block 1 at point t, entry (p, 0), is the array's entry at row 80 t + p. -/
theorem iblk1_apply (c : Dev nD) (t : Fin cfg1.N) (p : Fin 80) (j : Fin 1) (r : Fin 10000) (hr : r.val = 80 * t.val + p.val) :
    (iblk1 V c 1 t : Vec Ideal S80x1 .f32) (ix2 p j) = (V c main_call0_v4_1 : S10000x1.Idx → Elt Ideal .f32) (ix2 r j) := by
  obtain ⟨e00, e01, e10, e11, e20, e21, e30, e31, e80, e81, e40, e41, e50, e51, e60, e61, e70, e71⟩ := idx_facts t
  unfold iblk1
  rw [View.read_apply]
  show V c main_call0_v4_1 _ = V c main_call0_v4_1 _
  congr 1
  funext a
  apply Fin.ext
  match a with
  | ⟨0, _⟩ => show win1_1.index t (0 : Fin 2) * 80 + 1 * p.val = r.val; rw [e10, hr]; omega
  | ⟨1, _⟩ => show win1_1.index t (1 : Fin 2) * 1 + 1 * j.val = j.val; rw [e11]; omega

/-- Input block 2 at point t, entry (p, 0), is the array's entry at row 80 t + p. -/
theorem iblk2_apply (c : Dev nD) (t : Fin cfg1.N) (p : Fin 80) (j : Fin 1) (r : Fin 10000) (hr : r.val = 80 * t.val + p.val) :
    (iblk1 V c 2 t : Vec Ideal S80x1 .f32) (ix2 p j) = (V c main_call0_v4_2 : S10000x1.Idx → Elt Ideal .f32) (ix2 r j) := by
  obtain ⟨e00, e01, e10, e11, e20, e21, e30, e31, e80, e81, e40, e41, e50, e51, e60, e61, e70, e71⟩ := idx_facts t
  unfold iblk1
  rw [View.read_apply]
  show V c main_call0_v4_2 _ = V c main_call0_v4_2 _
  congr 1
  funext a
  apply Fin.ext
  match a with
  | ⟨0, _⟩ => show win1_2.index t (0 : Fin 2) * 80 + 1 * p.val = r.val; rw [e20, hr]; omega
  | ⟨1, _⟩ => show win1_2.index t (1 : Fin 2) * 1 + 1 * j.val = j.val; rw [e21]; omega

/-- Input block 3 at point t, entry (p, 0), is the array's entry at row 80 t + p. -/
theorem iblk3_apply (c : Dev nD) (t : Fin cfg1.N) (p : Fin 80) (j : Fin 1) (r : Fin 10000) (hr : r.val = 80 * t.val + p.val) :
    (iblk1 V c 3 t : Vec Ideal S80x1 .f32) (ix2 p j) = (V c main_call0_v4_3 : S10000x1.Idx → Elt Ideal .f32) (ix2 r j) := by
  obtain ⟨e00, e01, e10, e11, e20, e21, e30, e31, e80, e81, e40, e41, e50, e51, e60, e61, e70, e71⟩ := idx_facts t
  unfold iblk1
  rw [View.read_apply]
  show V c main_call0_v4_3 _ = V c main_call0_v4_3 _
  congr 1
  funext a
  apply Fin.ext
  match a with
  | ⟨0, _⟩ => show win1_3.index t (0 : Fin 2) * 80 + 1 * p.val = r.val; rw [e30, hr]; omega
  | ⟨1, _⟩ => show win1_3.index t (1 : Fin 2) * 1 + 1 * j.val = j.val; rw [e31]; omega

/-- Input block 4 at any point is the whole array. -/
theorem iblk4_apply (c : Dev nD) (t : Fin cfg1.N) (x : S1x10000.Idx) :
    (iblk1 V c 4 t : Vec Ideal S1x10000 .f32) x = (V c main_call0_v5 : S1x10000.Idx → Elt Ideal .f32) x := by
  obtain ⟨e00, e01, e10, e11, e20, e21, e30, e31, e80, e81, e40, e41, e50, e51, e60, e61, e70, e71⟩ := idx_facts t
  unfold iblk1
  rw [View.read_apply]
  show V c main_call0_v5 _ = V c main_call0_v5 _
  congr 1
  funext a
  apply Fin.ext
  match a with
  | ⟨0, _⟩ => show win1_4.index t (0 : Fin 2) * 1 + 1 * (x 0).val = (x 0).val; rw [e40]; omega
  | ⟨1, _⟩ => show win1_4.index t (1 : Fin 2) * 10000 + 1 * (x 1).val = (x 1).val; rw [e41]; omega

/-- Input block 5 at any point is the whole array. -/
theorem iblk5_apply (c : Dev nD) (t : Fin cfg1.N) (x : S1x10000.Idx) :
    (iblk1 V c 5 t : Vec Ideal S1x10000 .f32) x = (V c main_call0_v6 : S1x10000.Idx → Elt Ideal .f32) x := by
  obtain ⟨e00, e01, e10, e11, e20, e21, e30, e31, e80, e81, e40, e41, e50, e51, e60, e61, e70, e71⟩ := idx_facts t
  unfold iblk1
  rw [View.read_apply]
  show V c main_call0_v6 _ = V c main_call0_v6 _
  congr 1
  funext a
  apply Fin.ext
  match a with
  | ⟨0, _⟩ => show win1_5.index t (0 : Fin 2) * 1 + 1 * (x 0).val = (x 0).val; rw [e50]; omega
  | ⟨1, _⟩ => show win1_5.index t (1 : Fin 2) * 10000 + 1 * (x 1).val = (x 1).val; rw [e51]; omega

/-- Input block 6 at any point is the whole array. -/
theorem iblk6_apply (c : Dev nD) (t : Fin cfg1.N) (x : S1x10000.Idx) :
    (iblk1 V c 6 t : Vec Ideal S1x10000 .f32) x = (V c main_call0_v7 : S1x10000.Idx → Elt Ideal .f32) x := by
  obtain ⟨e00, e01, e10, e11, e20, e21, e30, e31, e80, e81, e40, e41, e50, e51, e60, e61, e70, e71⟩ := idx_facts t
  unfold iblk1
  rw [View.read_apply]
  show V c main_call0_v7 _ = V c main_call0_v7 _
  congr 1
  funext a
  apply Fin.ext
  match a with
  | ⟨0, _⟩ => show win1_6.index t (0 : Fin 2) * 1 + 1 * (x 0).val = (x 0).val; rw [e60]; omega
  | ⟨1, _⟩ => show win1_6.index t (1 : Fin 2) * 10000 + 1 * (x 1).val = (x 1).val; rw [e61]; omega

/-- Input block 7 at any point is the whole array. -/
theorem iblk7_apply (c : Dev nD) (t : Fin cfg1.N) (x : S10000x128.Idx) :
    (iblk1 V c 7 t : Vec Ideal S10000x128 .bf16) x = (V c main_call0_v4_0 : S10000x128.Idx → Elt Ideal .bf16) x := by
  obtain ⟨e00, e01, e10, e11, e20, e21, e30, e31, e80, e81, e40, e41, e50, e51, e60, e61, e70, e71⟩ := idx_facts t
  unfold iblk1
  rw [View.read_apply]
  show V c main_call0_v4_0 _ = V c main_call0_v4_0 _
  congr 1
  funext a
  apply Fin.ext
  match a with
  | ⟨0, _⟩ => show win1_7.index t (0 : Fin 2) * 10000 + 1 * (x 0).val = (x 0).val; rw [e70]; omega
  | ⟨1, _⟩ => show win1_7.index t (1 : Fin 2) * 128 + 1 * (x 1).val = (x 1).val; rw [e71]; omega

/-- The streaming pass's array of the eight arrays the region finds. -/
abbrev GV (c : Dev nD) : S10000x128.Idx → Elt Ideal .f32 :=
  Cert.Gat.G1 (V c main_arg0) (V c main_call0_v4_1) (V c main_call0_v4_2) (V c main_call0_v4_3) (V c main_call0_v5)
    (V c main_call0_v6) (V c main_call0_v7) (V c main_call0_v4_0)

/-- What point t writes back is block t of that array: rows 80 t … 80 t + 79. -/
theorem flushed_eq (c : Dev nD) (t : Fin cfg1.N) :
    (dat1 V c).flushed 8 t = ((cfg1.win 8).blk t).view.read (Elt Ideal) (GV V c) := by
  show (cfg1.win 8).cut (grid1.coords t) ((dat1 V c).after 8 t) = _
  rw [after1_8]
  unfold out1_8
  rw [View.canon_unit_zero hz]
  simp only [View.ld_unit_zero (S := S80x1) hz, View.ld_unit_zero (S := S1x10000) hz, View.ld_unit_zero (S := S80x10000) hz,
    View.ld_unit_zero (S := S10000x128) hz]
  funext y
  obtain ⟨p, d, rfl⟩ : ∃ (p : Fin 80) (d : Fin 128), y = ix2 p d := ⟨y 0, y 1, eq_ix2 y⟩
  have ht : t.val < 125 := t.isLt
  have hr : 80 * t.val + p.val < 10000 := by have := p.isLt; omega
  obtain ⟨e00, e01, e10, e11, e20, e21, e30, e31, e80, e81, e40, e41, e50, e51, e60, e61, e70, e71⟩ := idx_facts t
  have hemb : ((cfg1.win 8).blk t).view.emb (ix2 p d) = (ix2 (⟨80 * t.val + p.val, hr⟩ : Fin 10000) d : S10000x128.Idx) := by
    funext a; apply Fin.ext
    match a with
    | ⟨0, _⟩ => show win1_8.index t (0 : Fin 2) * 80 + 1 * p.val = 80 * t.val + p.val; rw [e80]; omega
    | ⟨1, _⟩ => show win1_8.index t (1 : Fin 2) * 128 + 1 * d.val = d.val; rw [e81]; omega
  refine (blk_entry _ _ _ _ _ _ _ _ (V c main_arg0) (V c main_call0_v4_1) (V c main_call0_v4_2) (V c main_call0_v4_3)
    (V c main_call0_v5) (V c main_call0_v6) (V c main_call0_v7) (V c main_call0_v4_0) p d ⟨80 * t.val + p.val, hr⟩
    (fun j => iblk0_apply V c t p j _ rfl) (iblk1_apply V c t p 0 _ rfl) (iblk2_apply V c t p 0 _ rfl) (iblk3_apply V c t p 0 _ rfl)
    (fun j => iblk4_apply V c t _) (fun j => iblk5_apply V c t _) (fun j => iblk6_apply V c t _) (fun j => iblk7_apply V c t _)).trans ?_
  show GV V c _ = GV V c (((cfg1.win 8).blk t).view.emb (ix2 p d))
  exact congrArg (GV V c) hemb.symm

/-- An index of the output array is in point t's block iff each coordinate is in the block's range on its axis. -/
theorem mem_blk (t : Fin cfg1.N) (i : S10000x128.Idx) :
    i ∈ ((cfg1.win 8).blk t).view.set ↔ ∀ a : Fin 2, win1_8.index t a * S80x128.size a ≤ (i a).val ∧ (i a).val < win1_8.index t a * S80x128.size a + S80x128.size a := by
  show i ∈ ((View.whole main_v0).slice (win1_8.rect t)).set ↔ _
  rw [View.set_slice_whole, Rect.mem_set_unit]
  exact Iff.rfl

/-- Row r of the output lies in the block of point r / 80: the 125 row blocks of 80 rows cover the 10000 rows. -/
theorem cover (i : S10000x128.Idx) : ∃ t : Fin cfg1.N, (cfg1.win 8).flush t = true ∧ i ∈ ((cfg1.win 8).blk t).view.set := by
  have hi0 : (i 0).val < 10000 := (i 0).isLt
  have hi1 : (i 1).val < 128 := (i 1).isLt
  have ht : (i 0).val / 80 < grid1.N := by rw [N_1]; omega
  obtain ⟨e00, e01, e10, e11, e20, e21, e30, e31, e80, e81, e40, e41, e50, e51, e60, e61, e70, e71⟩ := idx_facts ⟨(i 0).val / 80, ht⟩
  have e80' : win1_8.index ⟨(i 0).val / 80, ht⟩ (0 : Fin 2) = (i 0).val / 80 := e80
  refine ⟨⟨(i 0).val / 80, ht⟩, flush1_8 _, ?_⟩
  rw [mem_blk]
  intro a
  match a with
  | ⟨0, _⟩ =>
    show win1_8.index ⟨(i 0).val / 80, ht⟩ (0 : Fin 2) * 80 ≤ (i 0).val ∧ (i 0).val < win1_8.index ⟨(i 0).val / 80, ht⟩ (0 : Fin 2) * 80 + 80
    rw [e80']; omega
  | ⟨1, _⟩ =>
    show win1_8.index ⟨(i 0).val / 80, ht⟩ (1 : Fin 2) * 128 ≤ (i 1).val ∧ (i 1).val < win1_8.index ⟨(i 0).val / 80, ht⟩ (1 : Fin 2) * 128 + 128
    rw [e81]; omega

/-- THE OUTPUT ARRAY after the region: the streaming pass's array of the eight arrays the region finds. -/
theorem arr8 (c : Dev nD) : (dat1 V c).arrAt 8 cfg1.N = Cert.Gat.G1 (V c main_arg0) (V c main_call0_v4_1) (V c main_call0_v4_2)
    (V c main_call0_v4_3) (V c main_call0_v5) (V c main_call0_v6) (V c main_call0_v7) (V c main_call0_v4_0) :=
  (dat1 V c).arrAt_eq_of_cover 8 (GV V c) (fun t _ => flushed_eq V c t) (cover)

end Blocks

end Cert.KernelIdeal.Region1

end
-- ==== Proof.Boundary.lean ====
/-
  The buffer contents at the entry of each kernel region, at the exact instance.

  Region 0 is entered after the attention vector has been cut into its two halves and each half laid out as a
  column; region 1 is entered after three of region 0's output columns have been laid out as rows.  Every
  buffer a region reads is walked back through these layout operations: an argument nobody writes is the
  launch memory; a half of the attention vector is the launch vector read through a slice and a transpose;
  an output of region 0 that no later operation writes is what region 0's write-backs leave; a row is such a
  column read through a reshape.
-/
import proofs.«175472_g21569325761082_cont_sun_m_1095_11_alg».proof.Proof.Gen.KernelIdeal.Frame
import proofs.«175472_g21569325761082_cont_sun_m_1095_11_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Boundary

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The layout operations read at an index -/

/-- A half of a row vector of 256 entries, cut from offset `o` and laid out as a column, reads at `(k, u)` the
    vector's entry `(0, o + k)`: the transpose swaps the two coordinates, the slice shifts the second. -/
theorem col_apply (o : Nat) (a : S1x256.Idx → EReal) (hs : S1x256.Slices ![0, o] S1x128)
    (ht : S1x128.Transposes [1, 0] S128x1) (k : Fin 128) (u : Fin 1) (j : Fin 256) (hj : j.val = o + k.val) :
    transpose S128x1 [1, 0] (extractStridedSlice S1x128 ![0, o] a hs) ht (ix2 k u) = a (ix2 0 j) := by
  rw [transpose_ix2_apply (a := 1) (b := 128) _ ht k u]
  obtain rfl : u = 0 := Subsingleton.elim _ _
  exact slice2_axis1_apply (n0 := 1) (n1 := 256) (m := 128) o a hs 0 k j hj

/-- A column of 10000 entries reshaped to a row reads at `(u, j)` the column's entry `(j, 0)`: both have
    row-major position `j`. -/
theorem row_apply (C : S10000x1.Idx → EReal) (h : S10000x1.ShapeCasts S1x10000) (u : Fin 1) (j : Fin 10000) :
    shapeCast S1x10000 C h (ix2 u j) = C (ix2 j 0) := by
  refine shapeCast_apply C h _ _ ?_
  rw [Shape.rowMajor_val_two, Shape.rowMajor_val_two]
  obtain rfl : u = 0 := Subsingleton.elim _ _
  show (j.val * 1 + 0) = (0 * 10000 + j.val)
  omega

/-! ## Region 0's entry: the arguments and the two halves of the attention vector -/

/-- The node features enter region 0 as launched: no layout operation writes them. -/
theorem V1_arg1 (c : Dev nD) : V1 m ρ c main_arg1 = m ((c : Thread nD τ).loc main_arg1) :=
  calc V1 m ρ c main_arg1
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

/-- The weight matrix enters region 0 as launched. -/
theorem V1_arg2 (c : Dev nD) : V1 m ρ c main_arg2 = m ((c : Thread nD τ).loc main_arg2) :=
  calc V1 m ρ c main_arg2
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

/-- The first column region 0 reads is the first half of the launched attention vector. -/
theorem V1_colS (c : Dev nD) : V1 m ρ c main_call0_v1 = Cert.Gat.colSrc (m ((c : Thread nD τ).loc main_arg3)) := by
  have e : (V1 m ρ c main_call0_v1 : S128x1.Idx → EReal)
      = transpose S128x1 [1, 0] (extractStridedSlice S1x128 ![0, 0] (m ((c : Thread nD τ).loc main_arg3) : S1x256.Idx → EReal)
          slices_S1x256_S1x128_0_0) transposes_S1x128_S128x1_1_0 := by
    show StableHlo.after hostOps0 (W0 m ρ c) (Proc.devRef .tc main_call0_v1) = _
    after_results
    rfl
  refine e.trans (funext fun y => ?_)
  obtain ⟨k, u, rfl⟩ : ∃ (k : Fin 128) (u : Fin 1), y = ix2 k u := ⟨y 0, y 1, eq_ix2 y⟩
  exact col_apply 0 _ _ _ k u ⟨k.val, Nat.lt_of_lt_of_le k.isLt (by decide)⟩ (Nat.zero_add _).symm

/-- The second column region 0 reads is the second half of the launched attention vector. -/
theorem V1_colD (c : Dev nD) : V1 m ρ c main_call0_v3 = Cert.Gat.colDst (m ((c : Thread nD τ).loc main_arg3)) := by
  have e : (V1 m ρ c main_call0_v3 : S128x1.Idx → EReal)
      = transpose S128x1 [1, 0] (extractStridedSlice S1x128 ![0, 128] (m ((c : Thread nD τ).loc main_arg3) : S1x256.Idx → EReal)
          slices_S1x256_S1x128_0_128) transposes_S1x128_S128x1_1_0 := by
    show StableHlo.after hostOps0 (W0 m ρ c) (Proc.devRef .tc main_call0_v3) = _
    after_results
    rfl
  refine e.trans (funext fun y => ?_)
  obtain ⟨k, u, rfl⟩ : ∃ (k : Fin 128) (u : Fin 1), y = ix2 k u := ⟨y 0, y 1, eq_ix2 y⟩
  exact col_apply 128 _ _ _ k u ⟨128 + k.val, by have := k.isLt; omega⟩ rfl

/-! ## Region 1's entry: the adjacency matrix, region 0's outputs, and three of them as rows -/

/-- The adjacency matrix enters region 1 as launched: no layout operation writes it and region 0 does not
    touch it. -/
theorem V3_arg0 (c : Dev nD) : V3 m ρ c main_arg0 = m ((c : Thread nD τ).loc main_arg0) :=
  calc V3 m ρ c main_arg0
    _ = W2 m ρ c (Proc.devRef .tc main_arg0) := StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

/-- Region 0's output 0 enters region 1 as region 0's write-backs leave it: no reshape writes it. -/
theorem V3_v4_0 (c : Dev nD) : V3 m ρ c main_call0_v4_0 = (dat0 (V1 m ρ) c).arrAt 4 cfg0.N :=
  calc V3 m ρ c main_call0_v4_0
    _ = W2 m ρ c (Proc.devRef .tc main_call0_v4_0) := StableHlo.after_of_forall_not_mem (b := Proc.devRef .tc main_call0_v4_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 4 cfg0.N := W2_arr m ρ c 4

/-- Region 0's output 1 enters region 1 as region 0's write-backs leave it: no reshape writes it. -/
theorem V3_v4_1 (c : Dev nD) : V3 m ρ c main_call0_v4_1 = (dat0 (V1 m ρ) c).arrAt 5 cfg0.N :=
  calc V3 m ρ c main_call0_v4_1
    _ = W2 m ρ c (Proc.devRef .tc main_call0_v4_1) := StableHlo.after_of_forall_not_mem (b := Proc.devRef .tc main_call0_v4_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 5 cfg0.N := W2_arr m ρ c 5

/-- Region 0's output 2 enters region 1 as region 0's write-backs leave it: no reshape writes it. -/
theorem V3_v4_2 (c : Dev nD) : V3 m ρ c main_call0_v4_2 = (dat0 (V1 m ρ) c).arrAt 6 cfg0.N :=
  calc V3 m ρ c main_call0_v4_2
    _ = W2 m ρ c (Proc.devRef .tc main_call0_v4_2) := StableHlo.after_of_forall_not_mem (b := Proc.devRef .tc main_call0_v4_2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 6 cfg0.N := W2_arr m ρ c 6

/-- Region 0's output 3 enters region 1 as region 0's write-backs leave it: no reshape writes it. -/
theorem V3_v4_3 (c : Dev nD) : V3 m ρ c main_call0_v4_3 = (dat0 (V1 m ρ) c).arrAt 7 cfg0.N :=
  calc V3 m ρ c main_call0_v4_3
    _ = W2 m ρ c (Proc.devRef .tc main_call0_v4_3) := StableHlo.after_of_forall_not_mem (b := Proc.devRef .tc main_call0_v4_3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 7 cfg0.N := W2_arr m ρ c 7

/-- Row 0 of region 1's row inputs is region 0's output 4, a column, read through the reshape. -/
theorem V3_v5 (c : Dev nD) : V3 m ρ c main_call0_v5 = Cert.Gat.rowOf ((dat0 (V1 m ρ) c).arrAt 8 cfg0.N) := by
  have e : (V3 m ρ c main_call0_v5 : S1x10000.Idx → EReal)
      = shapeCast S1x10000 (W2 m ρ c (Proc.devRef .tc main_call0_v4_4) : S10000x1.Idx → EReal) shapeCasts_S10000x1_S1x10000 := by
    show StableHlo.after hostOps1 (W2 m ρ c) (Proc.devRef .tc main_call0_v5) = _
    after_results
    rfl
  have e2 : (W2 m ρ c (Proc.devRef .tc main_call0_v4_4) : S10000x1.Idx → EReal) = (dat0 (V1 m ρ) c).arrAt 8 cfg0.N :=
    W2_arr m ρ c 8
  rw [e2] at e
  refine e.trans (funext fun y => ?_)
  obtain ⟨u, j, rfl⟩ : ∃ (u : Fin 1) (j : Fin 10000), y = ix2 u j := ⟨y 0, y 1, eq_ix2 y⟩
  exact row_apply _ _ u j

/-- Row 1 of region 1's row inputs is region 0's output 5, a column, read through the reshape. -/
theorem V3_v6 (c : Dev nD) : V3 m ρ c main_call0_v6 = Cert.Gat.rowOf ((dat0 (V1 m ρ) c).arrAt 9 cfg0.N) := by
  have e : (V3 m ρ c main_call0_v6 : S1x10000.Idx → EReal)
      = shapeCast S1x10000 (W2 m ρ c (Proc.devRef .tc main_call0_v4_5) : S10000x1.Idx → EReal) shapeCasts_S10000x1_S1x10000 := by
    show StableHlo.after hostOps1 (W2 m ρ c) (Proc.devRef .tc main_call0_v6) = _
    after_results
    rfl
  have e2 : (W2 m ρ c (Proc.devRef .tc main_call0_v4_5) : S10000x1.Idx → EReal) = (dat0 (V1 m ρ) c).arrAt 9 cfg0.N :=
    W2_arr m ρ c 9
  rw [e2] at e
  refine e.trans (funext fun y => ?_)
  obtain ⟨u, j, rfl⟩ : ∃ (u : Fin 1) (j : Fin 10000), y = ix2 u j := ⟨y 0, y 1, eq_ix2 y⟩
  exact row_apply _ _ u j

/-- Row 2 of region 1's row inputs is region 0's output 6, a column, read through the reshape. -/
theorem V3_v7 (c : Dev nD) : V3 m ρ c main_call0_v7 = Cert.Gat.rowOf ((dat0 (V1 m ρ) c).arrAt 10 cfg0.N) := by
  have e : (V3 m ρ c main_call0_v7 : S1x10000.Idx → EReal)
      = shapeCast S1x10000 (W2 m ρ c (Proc.devRef .tc main_call0_v4_6) : S10000x1.Idx → EReal) shapeCasts_S10000x1_S1x10000 := by
    show StableHlo.after hostOps1 (W2 m ρ c) (Proc.devRef .tc main_call0_v7) = _
    after_results
    rfl
  have e2 : (W2 m ρ c (Proc.devRef .tc main_call0_v4_6) : S10000x1.Idx → EReal) = (dat0 (V1 m ρ) c).arrAt 10 cfg0.N :=
    W2_arr m ρ c 10
  rw [e2] at e
  refine e.trans (funext fun y => ?_)
  obtain ⟨u, j, rfl⟩ : ∃ (u : Fin 1) (j : Fin 10000), y = ix2 u j := ⟨y 0, y 1, eq_ix2 y⟩
  exact row_apply _ _ u j

end Cert.KernelIdeal.Boundary

end
-- ==== Proof.Finite.lean ====
/-
  From the precondition "every float input is finite" to "every entry of X, W and a is a real number", at the exact
  instance. The precondition compares |x| with the word 0x7F800000, which denotes +∞, entry by entry, takes the
  conjunction over all entries of each argument, and joins the four conjunctions. An extended real whose absolute
  value max x (-x) lies strictly below +∞ is neither -∞ nor +∞, so it is a real.
-/
import proofs.«175472_g21569325761082_cont_sun_m_1095_11_alg».proof.Defs
import proofs.«175472_g21569325761082_cont_sun_m_1095_11_alg».proof.Proof.Gen.Pre_finite_inputs
import Idealize.ShloMosaic.Lib.ReduceAll
import Idealize.ShloMosaic.PureOps.Ideal.Laws
import Idealize.ShloMosaic.Lib.ValueIdx

noncomputable section

namespace Cert.KernelIdeal.Finite

open Idealize.ShloMosaic Idealize.SL.Sem Cert.Pre_finite_inputs

/-- The rank-0 shape has exactly one index. -/
instance : Subsingleton S_.Idx := ⟨fun a b => funext fun d => d.elim0⟩

/-- The word 0x7F800000 (exponent all ones, significand zero, sign clear) denotes +∞. -/
theorem ofBits_inf : Ideal.ofBits .f32 0x7F800000#32 = (⊤ : EReal) := by
  simp [Ideal.ofBits, Ideal.ieee]

/-- An extended real whose absolute value max x (-x) is strictly below +∞ is a real:
    at -∞ the negation is +∞, at +∞ the entry itself is, and +∞ is not below itself. -/
theorem real_of_abs_lt_top (x : EReal) (h : max x (-x) < ⊤) : ∃ r : ℝ, x = (r : EReal) := by
  induction x using EReal.rec with
  | bot => simp at h
  | coe r => exact ⟨r, rfl⟩
  | top => simp at h

/-- One argument's part of the precondition: if the conjunction over all entries of |x| < +∞ is 1,
    every entry of x is a real. -/
theorem real_of_all {S : Shape} {axes : List (Fin S.rank)} (x : FVec Ideal S .f32)
    (hb : S_.BroadcastsInDim S (![] : Fin 0 → Fin S.rank)) (hr : S.ReducesTo axes S_) (hu : 0 < S_.numel) (j : S_.Idx)
    (e : Host.reduce IntOp.andi
        (cmpf .olt (Host.absf x) (broadcastInDim S ![] hb (constant (F := Ideal) S_ .f32 0x7F800000#32)))
        (constantI S_ 1 1#1) hr hu j = 1#1) :
    ∀ i, ∃ r : ℝ, x i = (r : EReal) := by
  intro i
  have h1 := Host.reduce_andi_all _ _ hr hu j e i
  have h2 : Ideal.cmp .olt (max (x i) (-(x i))) (Ideal.ofBits .f32 0x7F800000#32) = 1#1 := h1
  rw [ofBits_inf] at h2
  have h3 : max (x i) (-(x i)) < (⊤ : EReal) := by
    by_contra hn
    have h0 : Ideal.cmp .olt (max (x i) (-(x i))) (⊤ : EReal) = 0#1 := by
      show BitVec.ofBool (decide (max (x i) (-(x i)) < (⊤ : EReal))) = 0#1
      rw [decide_eq_false hn]; rfl
    rw [h0] at h2
    exact absurd h2 (by decide)
  exact real_of_abs_lt_top _ h3

/-- Under the precondition, every entry of X (argument 1), W (argument 2) and a (argument 3) is a real. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h0 := congrFun (h c) ValueIdx.ix0
  dsimp only [Cert.Pre_finite_inputs.fn, Cert.Pre_finite_inputs.fn_part1] at h0
  -- the four conjunctions are joined left to right: ((adjacency ∧ X) ∧ W) ∧ a
  obtain ⟨h13, h17⟩ := IntOp.andi_eq_one.1 h0
  obtain ⟨h8, h12⟩ := IntOp.andi_eq_one.1 h13
  obtain ⟨_, h7⟩ := IntOp.andi_eq_one.1 h8
  exact ⟨real_of_all _ _ _ _ _ h7, real_of_all _ _ _ _ _ h12, real_of_all _ _ _ _ _ h17⟩

end Cert.KernelIdeal.Finite

end
-- ==== Proof.RefTerm.lean ====
/-
  The reference layer as one composed term of its four arguments: the projected features, the two score columns,
  the score matrix (a column broadcast along rows plus a row broadcast along columns), the leaky rectifier, the
  masked exponential weights, their row sums, the aggregation product, the quotient and the exponential linear unit,
  each written with the host operation the reference applies.
-/
import proofs.«175472_g21569325761082_cont_sun_m_1095_11_alg».proof.ReferenceIdeal
import proofs.«175472_g21569325761082_cont_sun_m_1095_11_alg».proof.Proof.Gen.ReferenceIdeal

noncomputable section

namespace Cert.ReferenceIdeal.RefTerm

open Cert.ReferenceIdeal Idealize.ShloMosaic

variable {F : FTy → Type} [FloatOps F]

/-- The projected features X W. -/
def proj (X : FVec F S10000x128 .f32) (W : FVec F S128x128 .f32) : FVec F S10000x128 .f32 :=
  Host.dotGeneral dot_S10000x128_S128x128_S10000x128_1_0_0_1_n_n none X W

/-- The first half of the attention vector, transposed to a column. -/
def colS (a : FVec F S1x256 .f32) : FVec F S128x1 .f32 :=
  transpose S128x1 [1, 0] (extractStridedSlice S1x128 ![0, 0] a Gen.slices_S1x256_S1x128_0_0) Gen.transposes_S1x128_S128x1_1_0

/-- The second half of the attention vector, transposed to a column. -/
def colD (a : FVec F S1x256 .f32) : FVec F S128x1 .f32 :=
  transpose S128x1 [1, 0] (extractStridedSlice S1x128 ![0, 128] a Gen.slices_S1x256_S1x128_0_128) Gen.transposes_S1x128_S128x1_1_0

/-- A score column: the projected features times a column. -/
def sc (P : FVec F S10000x128 .f32) (A : FVec F S128x1 .f32) : FVec F S10000x1 .f32 :=
  Host.dotGeneral dot_S10000x128_S128x1_S10000x1_1_0_0_1_n_n none P A

/-- The score matrix: entry (i, j) is the source score of i plus the destination score of j. -/
def scores (fs fd : FVec F S10000x1 .f32) : FVec F S10000x10000 .f32 :=
  addf (broadcastInDim S10000x10000 ![0, 1] Gen.bcast_S10000x1_S10000x10000_0_1 fs)
    (broadcastInDim S10000x10000 ![0, 1] Gen.bcast_S1x10000_S10000x10000_0_1
      (transpose S1x10000 [1, 0] fd Gen.transposes_S10000x1_S1x10000_1_0))

/-- The leaky rectifier: s where s >= 0, the slope times s elsewhere. -/
def leaky (s : FVec F S10000x10000 .f32) : FVec F S10000x10000 .f32 :=
  select (cmpf .oge s (broadcastInDim S10000x10000 ![] Gen.bcast_S_S10000x10000 (constant S_ .f32 0x00000000#32))) s
    (mulf (broadcastInDim S10000x10000 ![] Gen.bcast_S_S10000x10000 (id (constant S_ .f32 0x3E4CCCCD#32))) s)

/-- The masked attention weights: adjacency times exp of the negated rectified score. -/
def weights (adj s : FVec F S10000x10000 .f32) : FVec F S10000x10000 .f32 :=
  mulf adj (Host.exp (Host.negf (leaky s)))

/-- The row sums of the weights, repeated along the feature axis. -/
def rowsum (e : FVec F S10000x10000 .f32) : FVec F S10000x128 .f32 :=
  broadcastInDim S10000x128 ![0, 1] Gen.bcast_S10000x1_S10000x128_0_1
    (broadcastInDim S10000x1 ![0] Gen.bcast_S10000_S10000x1_0
      (Host.reduceAdd e (constant S_ .f32 0x00000000#32) Gen.reducesTo_S10000x10000_S10000_d1 Gen.h_S_))

/-- The aggregation: the weights times the projected features. -/
def agg (e : FVec F S10000x10000 .f32) (P : FVec F S10000x128 .f32) : FVec F S10000x128 .f32 :=
  Host.dotGeneral dot_S10000x10000_S10000x128_S10000x128_1_0_0_1_n_n none e P

/-- The exponential linear unit as the reference spells it: h where h > 0, else one times expm1 of h (of 0 where h > 0). -/
def eluT (h : FVec F S10000x128 .f32) : FVec F S10000x128 .f32 :=
  select (cmpf .ogt h (broadcastInDim S10000x128 ![] Gen.bcast_S_S10000x128 (constant S_ .f32 0x00000000#32))) h
    (mulf (broadcastInDim S10000x128 ![] Gen.bcast_S_S10000x128 (constant S_ .f32 0x3F800000#32))
      (Host.expm1
        (select (cmpf .ogt h (broadcastInDim S10000x128 ![] Gen.bcast_S_S10000x128 (constant S_ .f32 0x00000000#32)))
          (broadcastInDim S10000x128 ![] Gen.bcast_S_S10000x128 (id (constant S_ .f32 0x00000000#32))) h)))

/-- The weights of the layer from its four arguments. -/
def wts (adj : FVec F S10000x10000 .f32) (X : FVec F S10000x128 .f32) (W : FVec F S128x128 .f32) (a : FVec F S1x256 .f32) :
    FVec F S10000x10000 .f32 :=
  weights adj (scores (sc (proj X W) (colS a)) (sc (proj X W) (colD a)))

/-- The reference's result as one term of its four arguments. -/
def term (adj : FVec F S10000x10000 .f32) (X : FVec F S10000x128 .f32) (W : FVec F S128x128 .f32) (a : FVec F S1x256 .f32) :
    FVec F S10000x128 .f32 :=
  eluT (Host.divf (agg (wts adj X W a) (proj X W)) (rowsum (wts adj X W a)))

end Cert.ReferenceIdeal.RefTerm

end
-- ==== Proof.RefRun.lean ====
/-
  The reference program's run. @main is a straight line of host operations once its four module-local functions
  are unfolded at their calls: the leaky rectifier (six operations, then the select of the function it calls) and the
  exponential linear unit (seven operations, the three of its first select, four more, its second select). Listed in
  program order, the fold of the line at the result buffer is the composed term of the four arguments, and the
  arguments' buffers are written by no operation.
-/
import proofs.«175472_g21569325761082_cont_sun_m_1095_11_alg».proof.ReferenceIdeal
import proofs.«175472_g21569325761082_cont_sun_m_1095_11_alg».proof.Proof.Gen.ReferenceIdeal
import proofs.«175472_g21569325761082_cont_sun_m_1095_11_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's forty-three operations in program order, each call's operations in its place: twelve of @main (the
    projection, the two halves of the attention vector as columns, the two score columns, the score matrix, the slope),
    the rectifier's six and its select, nine of @main (negation, exponential, the mask, the row sums, the aggregation,
    the quotient), then the unit's seven, its inner select's three, its four, and its outer select. -/
abbrev ops : List (HloOp τ sig (Elt F)) :=
  [ binary main_arg1 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v1 ((extractStridedSlice S1x128 ![0, 0] · slices_S1x256_S1x128_0_0) : (⟨S1x256, .f32⟩ : BufTy).Contents (Elt F) → (⟨S1x128, .f32⟩ : BufTy).Contents (Elt F)),
    unary main_arg3 main_v2 ((extractStridedSlice S1x128 ![0, 128] · slices_S1x256_S1x128_0_128) : (⟨S1x256, .f32⟩ : BufTy).Contents (Elt F) → (⟨S1x128, .f32⟩ : BufTy).Contents (Elt F)),
    unary main_v1 main_v3 ((transpose S128x1 [1, 0] · transposes_S1x128_S128x1_1_0) : (⟨S1x128, .f32⟩ : BufTy).Contents (Elt F) → (⟨S128x1, .f32⟩ : BufTy).Contents (Elt F)),
    binary main_v0 main_v3 main_v4 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_v2 main_v5 ((transpose S128x1 [1, 0] · transposes_S1x128_S128x1_1_0) : (⟨S1x128, .f32⟩ : BufTy).Contents (Elt F) → (⟨S128x1, .f32⟩ : BufTy).Contents (Elt F)),
    binary main_v0 main_v5 main_v6 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    unary main_v6 main_v7 ((transpose S1x10000 [1, 0] · transposes_S10000x1_S1x10000_1_0) : (⟨S10000x1, .f32⟩ : BufTy).Contents (Elt F) → (⟨S1x10000, .f32⟩ : BufTy).Contents (Elt F)),
    unary main_v4 main_v8 (broadcastInDim S10000x10000 ![0, 1] bcast_S10000x1_S10000x10000_0_1 : (⟨S10000x1, .f32⟩ : BufTy).Contents (Elt F) → (⟨S10000x10000, .f32⟩ : BufTy).Contents (Elt F)),
    unary main_v7 main_v9 (broadcastInDim S10000x10000 ![0, 1] bcast_S1x10000_S10000x10000_0_1 : (⟨S1x10000, .f32⟩ : BufTy).Contents (Elt F) → (⟨S10000x10000, .f32⟩ : BufTy).Contents (Elt F)),
    binary main_v8 main_v9 main_v10 (addf : (⟨S10000x10000, .f32⟩ : BufTy).Contents (Elt F) → (⟨S10000x10000, .f32⟩ : BufTy).Contents (Elt F) → (⟨S10000x10000, .f32⟩ : BufTy).Contents (Elt F)),
    nullary main_cst (constant S_ .f32 0x3E4CCCCD#32),
    TRef.nullary main_call0.cst (constant S_ .f32 0x00000000#32),
    TRef.unary main_call0.cst main_call0.v0 (broadcastInDim S10000x10000 ![] bcast_S_S10000x10000),
    TRef.binary (.of main_v10) main_call0.v0 main_call0.v1 (cmpf .oge),
    TRef.unary (.of main_cst) main_call0.v2 id,
    TRef.unary main_call0.v2 main_call0.v3 (broadcastInDim S10000x10000 ![] bcast_S_S10000x10000),
    TRef.binary main_call0.v3 (.of main_v10) main_call0.v4 mulf,
    TRef.ternary main_call0.v1 (.of main_v10) main_call0.v4 main_call0.call0.v0 select,
    unary main_v11 main_v12 (Host.negf : (⟨S10000x10000, .f32⟩ : BufTy).Contents (Elt F) → (⟨S10000x10000, .f32⟩ : BufTy).Contents (Elt F)),
    unary main_v12 main_v13 (Host.exp : (⟨S10000x10000, .f32⟩ : BufTy).Contents (Elt F) → (⟨S10000x10000, .f32⟩ : BufTy).Contents (Elt F)),
    binary main_arg0 main_v13 main_v14 (mulf : (⟨S10000x10000, .f32⟩ : BufTy).Contents (Elt F) → (⟨S10000x10000, .f32⟩ : BufTy).Contents (Elt F) → (⟨S10000x10000, .f32⟩ : BufTy).Contents (Elt F)),
    nullary main_cst_0 (constant S_ .f32 0x00000000#32),
    binary main_v14 main_cst_0 main_v15 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v15 main_v16 (broadcastInDim S10000x1 ![0] bcast_S10000_S10000x1_0 : (⟨S10000, .f32⟩ : BufTy).Contents (Elt F) → (⟨S10000x1, .f32⟩ : BufTy).Contents (Elt F)),
    binary main_v14 main_v0 main_v17 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_v16 main_v18 (broadcastInDim S10000x128 ![0, 1] bcast_S10000x1_S10000x128_0_1 : (⟨S10000x1, .f32⟩ : BufTy).Contents (Elt F) → (⟨S10000x128, .f32⟩ : BufTy).Contents (Elt F)),
    binary main_v17 main_v18 main_v19 (Host.divf : (⟨S10000x128, .f32⟩ : BufTy).Contents (Elt F) → (⟨S10000x128, .f32⟩ : BufTy).Contents (Elt F) → (⟨S10000x128, .f32⟩ : BufTy).Contents (Elt F)),
    TRef.nullary main_call1.cst (constant S_ .f32 0x00000000#32),
    TRef.unary main_call1.cst main_call1.v0 (broadcastInDim S10000x128 ![] bcast_S_S10000x128),
    TRef.binary (.of main_v19) main_call1.v0 main_call1.v1 (cmpf .ogt),
    TRef.nullary main_call1.cst_0 (constant S_ .f32 0x00000000#32),
    TRef.unary main_call1.cst_0 main_call1.v2 (broadcastInDim S10000x128 ![] bcast_S_S10000x128),
    TRef.binary (.of main_v19) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S10000x128 ![] bcast_S_S10000x128),
    TRef.ternary main_call1.v3 main_call1.call0.v1 (.of main_v19) main_call1.call0.v2 select,
    TRef.unary main_call1.call0.v2 main_call1.v5 Host.expm1,
    TRef.nullary main_call1.cst_2 (constant S_ .f32 0x3F800000#32),
    TRef.unary main_call1.cst_2 main_call1.v6 (broadcastInDim S10000x128 ![] bcast_S_S10000x128),
    TRef.binary main_call1.v6 main_call1.v5 main_call1.v7 mulf,
    TRef.ternary main_call1.v1 (.of main_v19) main_call1.v7 main_call1.call1.v0 select ]

-- forty-three binds re-associated: the rewrite under the chain recurses once per statement
set_option maxRecDepth 1024 in
/-- @main is that straight line: the functions unfolded at their calls and the records at their fields, both sides
    are one chain of steps once sequencing is re-associated. -/
theorem main_eq (c : Dev nD) : main (F := F) c = seq ops := by
  simp only [main, fn_leaky_relu.body, fn_where.body, fn_elu.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., unary_bufs_sub .., unary_bufs_sub .., binary_bufs_sub .., unary_bufs_sub ..,
    binary_bufs_sub .., unary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., unary_bufs_sub .., binary_bufs_sub .., nullary_bufs_sub .., binary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub ..⟩

attribute [local irreducible] Host.reduceAdd in
set_option maxRecDepth 8192 in
set_option maxHeartbeats 400000 in
/-- The fold at the result buffer is the composed term by computation: each operation's result decides whether the
    buffer read is the one it writes, and the typed references' transports are the identity at literal references.
    The row reduction stays folded: the equation never looks inside it. -/
theorem result_eq (V : Valuation τ sig (Elt F)) :
    after ops V (main_v20 : DevRef τ sig)
      = RefTerm.term (V (main_arg0 : DevRef τ sig)) (V (main_arg1 : DevRef τ sig)) (V (main_arg2 : DevRef τ sig))
          (V (main_arg3 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-- On the one device, for any float values, from any memory with zero counters: every weakly fair execution of @main
    terminates with the result buffer at the composed term of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = RefTerm.term (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v20).trans (result_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's composed term is the layer of the specification, entry by entry, over the extended reals.

  Each stage of the term is read at an entry and named by the mathematics it computes: a product of matrices is the
  sum over the contracted coordinate of the products of entries; a slice followed by a transpose reads the attention
  vector's half as a column; the two broadcasts add a column along rows to a row along columns; the rectifier, the
  exponential and the mask are pointwise; the row sum is zero plus the sum along the row; the quotient and the
  exponential linear unit are pointwise. Joined, the term at (i, d) is the layer's value at (i, d).
-/
import proofs.«175472_g21569325761082_cont_sun_m_1095_11_alg».proof.Proof.RefTerm
import proofs.«175472_g21569325761082_cont_sun_m_1095_11_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

namespace Cert.ReferenceIdeal.RefValue

open Cert.ReferenceIdeal Idealize.ShloMosaic Idealize.ShloMosaic.ValueIdx
open scoped BigOperators

/-! ## The three matrix products, read at an entry -/

/-- The projected features at (i, k): row i of X against column k of W. -/
theorem proj_apply (X : FVec Ideal S10000x128 .f32) (W : FVec Ideal S128x128 .f32) (i : Fin 10000) (k : Fin 128) :
    RefTerm.proj (F := Ideal) X W (ix2 i k) = Cert.Gat.wh X W i k :=
  StackMember.dotGeneral_plain_apply none X W i k

/-- A score column at (i, u): row i of the features against the column. -/
theorem sc_apply (P : FVec Ideal S10000x128 .f32) (A : FVec Ideal S128x1 .f32) (i : Fin 10000) (u : Fin 1) :
    RefTerm.sc (F := Ideal) P A (ix2 i u) = ∑ k : Fin 128, P (ix2 i k) * A (ix2 k u) :=
  StackMember.dotGeneral_plain_apply none P A i u

/-- The aggregation at (i, d): row i of the weights against column d of the features. -/
theorem agg_apply (e : FVec Ideal S10000x10000 .f32) (P : FVec Ideal S10000x128 .f32) (i : Fin 10000) (d : Fin 128) :
    RefTerm.agg (F := Ideal) e P (ix2 i d) = ∑ j : Fin 10000, e (ix2 i j) * P (ix2 j d) :=
  StackMember.dotGeneral_plain_apply none e P i d

/-- The score column of the projected features is the node's score. -/
theorem sc_proj (X : FVec Ideal S10000x128 .f32) (W : FVec Ideal S128x128 .f32) (A : FVec Ideal S128x1 .f32)
    (i : Fin 10000) (u : Fin 1) :
    RefTerm.sc (F := Ideal) (RefTerm.proj X W) A (ix2 i u) = Cert.Gat.score X W A i := by
  obtain rfl : u = 0 := Subsingleton.elim _ _
  rw [sc_apply]
  unfold Cert.Gat.score
  exact Finset.sum_congr rfl fun k _ => by rw [proj_apply]

/-! ## The two halves of the attention vector as columns -/

/-- Entry (k, 0) of the first column is entry (0, k) of the attention vector. -/
theorem colS_eq (a : FVec Ideal S1x256 .f32) : RefTerm.colS (F := Ideal) a = Cert.Gat.colSrc a := by
  funext y
  obtain ⟨k, u, rfl⟩ : ∃ (k : Fin 128) (u : Fin 1), y = ix2 k u := ⟨y 0, y 1, eq_ix2 y⟩
  obtain rfl : u = 0 := Subsingleton.elim _ _
  unfold RefTerm.colS
  rw [transpose_ix2_apply, slice2_axis1_apply 0 a Gen.slices_S1x256_S1x128_0_0 0 k ⟨k.val, by omega⟩ (by simp)]
  rfl

/-- Entry (k, 0) of the second column is entry (0, 128 + k) of the attention vector. -/
theorem colD_eq (a : FVec Ideal S1x256 .f32) : RefTerm.colD (F := Ideal) a = Cert.Gat.colDst a := by
  funext y
  obtain ⟨k, u, rfl⟩ : ∃ (k : Fin 128) (u : Fin 1), y = ix2 k u := ⟨y 0, y 1, eq_ix2 y⟩
  obtain rfl : u = 0 := Subsingleton.elim _ _
  unfold RefTerm.colD
  rw [transpose_ix2_apply, slice2_axis1_apply 128 a Gen.slices_S1x256_S1x128_0_128 0 k ⟨128 + k.val, by omega⟩ rfl]
  rfl

/-! ## The score matrix and the weights -/

/-- The score matrix at (i, j): the column's entry i plus the column's entry j. -/
theorem scores_apply (fs fd : FVec Ideal S10000x1 .f32) (i j : Fin 10000) :
    RefTerm.scores (F := Ideal) fs fd (ix2 i j) = fs (ix2 i 0) + fd (ix2 j 0) := by
  unfold RefTerm.scores
  rw [addf_apply,
    broadcastInDim_apply _ Gen.bcast_S10000x1_S10000x10000_0_1 fs (ix2 i j) (ix2 i 0)
      (fun c => match c with | ⟨0, _⟩ => rfl | ⟨1, _⟩ => rfl),
    broadcastInDim_apply _ Gen.bcast_S1x10000_S10000x10000_0_1 _ (ix2 i j) (ix2 0 j)
      (fun c => match c with | ⟨0, _⟩ => rfl | ⟨1, _⟩ => rfl),
    transpose_ix2_apply]

/-- The masked weight at an entry: the adjacency entry times exp of the negated rectified score. -/
theorem weights_apply (adj s : FVec Ideal S10000x10000 .f32) (y : S10000x10000.Idx) :
    RefTerm.weights (F := Ideal) adj s y
      = adj y * Ideal.exp (-(Scalar.select (Ideal.cmp .oge (s y) 0) (s y) (Cert.Gat.slope * s y))) := by
  have e : RefTerm.weights (F := Ideal) adj s y
      = adj y * Ideal.exp (-(Scalar.select (Ideal.cmp .oge (s y) (Ideal.ofBits .f32 0x00000000#32)) (s y)
          (Ideal.ofBits .f32 0x3E4CCCCD#32 * s y))) := rfl
  rw [e, Ideal.ofBits_zero_f32]
  rfl

/-- The weights of the layer at (i, j). -/
theorem wts_apply (adj : FVec Ideal S10000x10000 .f32) (X : FVec Ideal S10000x128 .f32) (W : FVec Ideal S128x128 .f32)
    (a : FVec Ideal S1x256 .f32) (i j : Fin 10000) :
    RefTerm.wts (F := Ideal) adj X W a (ix2 i j) = Cert.Gat.eR adj X W a i j := by
  unfold RefTerm.wts
  rw [weights_apply, scores_apply, sc_proj, sc_proj, colS_eq, colD_eq]
  rfl

/-! ## The row sums, the quotient and the exponential linear unit -/

/-- The row sum at (i, d): zero plus the sum of row i, whatever d. -/
theorem rowsum_apply (e : FVec Ideal S10000x10000 .f32) (i : Fin 10000) (d : Fin 128) :
    RefTerm.rowsum (F := Ideal) e (ix2 i d) = ∑ j : Fin 10000, e (ix2 i j) := by
  unfold RefTerm.rowsum
  rw [broadcastInDim_apply _ Gen.bcast_S10000x1_S10000x128_0_1 _ (ix2 i d) (ix2 i 0)
      (fun c => match c with | ⟨0, _⟩ => rfl | ⟨1, _⟩ => rfl),
    broadcastInDim_apply _ Gen.bcast_S10000_S10000x1_0 _ (ix2 i 0) (ix1 i) (fun c => match c with | ⟨0, _⟩ => rfl),
    hostReduceAdd_apply,
    Ideal.hostReduceAdd_single Gen.reducesTo_S10000x10000_S10000_d1 (by decide : S10000x10000.Reduces [1] S10000),
    constant_apply, Ideal.ofBits_zero_f32, zero_add]
  refine Finset.sum_congr rfl fun j _ => congrArg e ?_
  funext c
  match c with
  | ⟨0, _⟩ => rfl
  | ⟨1, _⟩ => rfl

/-- The reference's spelling of the exponential linear unit is the unit: where h > 0 both are h; elsewhere the
    reference's one times (exp h - 1) is exp h - 1. -/
theorem eluT_apply (h : FVec Ideal S10000x128 .f32) (y : S10000x128.Idx) :
    RefTerm.eluT (F := Ideal) h y = Cert.Gat.elu (h y) := by
  have e : RefTerm.eluT (F := Ideal) h y
      = Scalar.select (Ideal.cmp .ogt (h y) (Ideal.ofBits .f32 0x00000000#32)) (h y)
          (Ideal.ofBits .f32 0x3F800000#32 *
            (Ideal.exp (Scalar.select (Ideal.cmp .ogt (h y) (Ideal.ofBits .f32 0x00000000#32))
              (Ideal.ofBits .f32 0x00000000#32) (h y)) - 1)) := rfl
  rw [e, Ideal.ofBits_zero_f32, Cert.Gat.ofBits_one, one_mul]
  unfold Cert.Gat.elu
  by_cases c : Ideal.cmp .ogt (h y) 0 = 1#1
  · simp only [c, select_one]
  · simp only [eq_zero_of_ne_one c, select_zero]

/-! ## The term is the layer -/

/-- The reference's composed term is the layer, entry by entry. -/
theorem term_eq_G (adj : FVec Ideal Cert.ReferenceIdeal.S10000x10000 .f32) (X : FVec Ideal Cert.ReferenceIdeal.S10000x128 .f32)
    (W : FVec Ideal Cert.ReferenceIdeal.S128x128 .f32) (a : FVec Ideal Cert.ReferenceIdeal.S1x256 .f32) :
    RefTerm.term (F := Ideal) adj X W a = Cert.Gat.G adj X W a := by
  funext y
  obtain ⟨i, d, rfl⟩ : ∃ (i : Fin 10000) (d : Fin 128), y = ix2 i d := ⟨y 0, y 1, eq_ix2 y⟩
  have h1 : (∑ j : Fin 10000, RefTerm.wts (F := Ideal) adj X W a (ix2 i j) * RefTerm.proj (F := Ideal) X W (ix2 j d))
      = ∑ j : Fin 10000, Cert.Gat.eR adj X W a i j * Cert.Gat.wh X W j d :=
    Finset.sum_congr rfl fun j _ => by rw [wts_apply, proj_apply]
  have h2 : (∑ j : Fin 10000, RefTerm.wts (F := Ideal) adj X W a (ix2 i j)) = ∑ j : Fin 10000, Cert.Gat.eR adj X W a i j :=
    Finset.sum_congr rfl fun j _ => wts_apply adj X W a i j
  unfold RefTerm.term
  rw [eluT_apply, hostDivf_apply, agg_apply, rowsum_apply, h1, h2, Cert.Gat.G_ix2]
  rfl

end Cert.ReferenceIdeal.RefValue

end
-- ==== Proof.lean ====
/-
  A graph-attention layer computed in one streaming pass over the dense adjacency matrix, against the layer computed
  by forming the full attention matrix.

  The layer: project the node features (X W), score every node as a source and as a destination against the two halves
  of the attention vector, weigh the pair (i, j) by adjacency times exp (-(leaky rectifier of the summed scores)),
  normalise the weighted sum of projected features of row i by the row's total weight, and apply the exponential
  linear unit.

  The streaming program runs two grids. The first, over row blocks of the features, leaves the projected features and
  five per-node columns: the source score, exp of minus it, exp of minus the slope times it, minus the destination
  score, and the same two exps of the destination score. The second, over stripes of adjacency rows, rebuilds the
  pair's weight as a product of two per-node exps chosen by comparing the source score with minus the destination
  score, multiplies by the adjacency, and forms the quotient and the unit in the same stripe.

  Over the extended reals the two agree whenever the features, the weights and the attention vector are finite: the
  scores are then real, exp (-(s + t)) = exp (-s) exp (-t) and exp (-(c (s + t))) = exp (-c s) exp (-c t), the
  comparison s > -t is s + t > 0, and at s + t = 0 both branches give 1. A change of float format is the identity,
  a matrix product into a zero accumulator and a lane sum are plain sums, in any order.

  The three runs (the kernel as printed, its reading over the extended reals, the reference) terminate with their
  arguments intact; the kernel's is the composition of its two grids with the reshapes between them, the reference's is
  its list of host operations.
-/
import proofs.«175472_g21569325761082_cont_sun_m_1095_11_alg».proof.Defs
import proofs.«175472_g21569325761082_cont_sun_m_1095_11_alg».proof.Proof.Gen.Kernel
import proofs.«175472_g21569325761082_cont_sun_m_1095_11_alg».proof.Proof.Gen.Kernel.Frame
import proofs.«175472_g21569325761082_cont_sun_m_1095_11_alg».proof.Proof.Gen.KernelIdeal
import proofs.«175472_g21569325761082_cont_sun_m_1095_11_alg».proof.Proof.Gen.KernelIdeal.Frame
import proofs.«175472_g21569325761082_cont_sun_m_1095_11_alg».proof.Proof.Gen.ReferenceIdeal
import proofs.«175472_g21569325761082_cont_sun_m_1095_11_alg».proof.Proof.Gen.Pre_finite_inputs
import proofs.«175472_g21569325761082_cont_sun_m_1095_11_alg».proof.Proof.Spec
import proofs.«175472_g21569325761082_cont_sun_m_1095_11_alg».proof.Proof.Glue
import proofs.«175472_g21569325761082_cont_sun_m_1095_11_alg».proof.Proof.KRun
import proofs.«175472_g21569325761082_cont_sun_m_1095_11_alg».proof.Proof.Region0
import proofs.«175472_g21569325761082_cont_sun_m_1095_11_alg».proof.Proof.Region1
import proofs.«175472_g21569325761082_cont_sun_m_1095_11_alg».proof.Proof.Boundary
import proofs.«175472_g21569325761082_cont_sun_m_1095_11_alg».proof.Proof.Finite
import proofs.«175472_g21569325761082_cont_sun_m_1095_11_alg».proof.Proof.RefRun
import proofs.«175472_g21569325761082_cont_sun_m_1095_11_alg».proof.Proof.RefValue
import Idealize.ShloMosaic.Adequacy
import Idealize.ShloMosaic.Init

noncomputable section

namespace Cert.Proof

open Idealize.ShloMosaic Idealize.ShloMosaic.TcCoe Idealize.SL.Sem

section KernelValue

open Cert.KernelIdeal Cert.KernelIdeal.Gen

variable (m : (ℓ : Loc nD τ sig) → Buf (Elt Ideal) ℓ) (ρ : Dev nD → PrngReg)

/-- Under the precondition the result buffer ends holding the layer of the launch arguments: the second grid's
    output array is the streaming form of its eight inputs, those are the first grid's arrays (three of them laid out
    as rows) and the adjacency as launched, the first grid's arrays are the per-node columns of the features, the
    weights and the two halves of the attention vector, and on real inputs the streaming form is the layer. -/
theorem result_eq (hpre : Cert.Pre_KernelIdeal m) (c : Dev nD) :
    W4 m ρ c (Proc.devRef .tc main_v0)
      = Cert.Gat.G (m ((c.tc : Thread nD τ).loc main_arg0)) (m ((c.tc : Thread nD τ).loc main_arg1))
          (m ((c.tc : Thread nD τ).loc main_arg2)) (m ((c.tc : Thread nD τ).loc main_arg3)) := by
  obtain ⟨hX, hW, ha⟩ := Cert.KernelIdeal.Finite.real_of_pre m hpre c
  rw [Cert.KernelIdeal.GatRun.W4_result, Cert.KernelIdeal.Region1.arr8,
    Cert.KernelIdeal.Boundary.V3_arg0, Cert.KernelIdeal.Boundary.V3_v4_0, Cert.KernelIdeal.Boundary.V3_v4_1,
    Cert.KernelIdeal.Boundary.V3_v4_2, Cert.KernelIdeal.Boundary.V3_v4_3, Cert.KernelIdeal.Boundary.V3_v5,
    Cert.KernelIdeal.Boundary.V3_v6, Cert.KernelIdeal.Boundary.V3_v7,
    Cert.KernelIdeal.Region0.arr4, Cert.KernelIdeal.Region0.arr5, Cert.KernelIdeal.Region0.arr6,
    Cert.KernelIdeal.Region0.arr7, Cert.KernelIdeal.Region0.arr8, Cert.KernelIdeal.Region0.arr9,
    Cert.KernelIdeal.Region0.arr10,
    Cert.KernelIdeal.Boundary.V1_arg1, Cert.KernelIdeal.Boundary.V1_arg2, Cert.KernelIdeal.Boundary.V1_colS,
    Cert.KernelIdeal.Boundary.V1_colD]
  exact Cert.Gat.stream_eq_layer _ _ _ _ hX hW ha

/-- The idealized kernel's run with its result named. -/
theorem kernel_run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v0)
        = Cert.Gat.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ hpre c), (h c).2⟩)
    (Cert.KernelIdeal.GatRun.run_value (F := Ideal) m ρ)

end KernelValue

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end at the layer of the (agreeing) arguments. -/
theorem algebraic : Cert.algebraic_KernelIdeal_ReferenceIdeal := by
  intro m ρ m' ρ' hpre hagree
  refine ⟨_, kernel_run m ρ hpre, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.term_eq_G _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
